-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel

variable [Facts]

def fn {F : FTy → Type} [FloatOps F] (main_arg0 : FVec F S8x128x128x128 .f32) (main_arg1 : IVec S8x128x128x128 32) : IVec S_ 1 :=
  let main_v0 : IVec S8x128x128x128 32 := iotaInDim S8x128x128x128 32 1
  let main_v1 : IVec S8x128x128x128 32 := iotaInDim S8x128x128x128 32 2
  let main_c : IVec S_ 32 := constantI S_ 32 16#32
  let main_v2 : IVec S8x128x128x128 32 := broadcastInDim S8x128x128x128 ![] bcast_S_S8x128x128x128 main_c
  let main_v3 : IVec S8x128x128x128 32 := Host.shrsi main_arg1 main_v2
  let main_c_0 : IVec S_ 32 := constantI S_ 32 8#32
  let main_v4 : IVec S8x128x128x128 32 := broadcastInDim S8x128x128x128 ![] bcast_S_S8x128x128x128 main_c_0
  let main_v5 : IVec S8x128x128x128 32 := Host.shrsi main_arg1 main_v4
  let main_c_1 : IVec S_ 32 := constantI S_ 32 127#32
  let main_v6 : IVec S8x128x128x128 32 := broadcastInDim S8x128x128x128 ![] bcast_S_S8x128x128x128 main_c_1
  let main_v7 : IVec S8x128x128x128 32 := andi main_v5 main_v6
  let main_v8 : FVec F S8x128x128x128 .f32 := Host.absf main_arg0
  let main_cst : FVec F S_ .f32 := constant S_ .f32 0x7F800000#32
  let main_v9 : FVec F S8x128x128x128 .f32 := broadcastInDim S8x128x128x128 ![] bcast_S_S8x128x128x128 main_cst
  let main_v10 : IVec S8x128x128x128 1 := cmpf .olt main_v8 main_v9
  let main_c_2 : IVec S_ 1 := constantI S_ 1 1#1
  let main_v11 : IVec S_ 1 := (fun x v => Host.reduce IntOp.andi x v reducesTo_S8x128x128x128_S_d0_1_2_3 h_S_) main_v10 main_c_2
  let main_v12 : IVec S8x128x128x128 1 := cmpi .eq main_v3 main_v0
  let main_v13 : IVec S8x128x128x128 1 := cmpi .eq main_v7 main_v1
  let main_v14 : IVec S8x128x128x128 1 := andi main_v12 main_v13
  let main_c_3 : IVec S_ 1 := constantI S_ 1 1#1
  let main_v15 : IVec S_ 1 := (fun x v => Host.reduce IntOp.andi x v reducesTo_S8x128x128x128_S_d0_1_2_3 h_S_) main_v14 main_c_3
  let main_v16 : IVec S_ 1 := andi main_v11 main_v15
  main_v16
-- ==== Kernel.lean ====
abbrev S8x128x128x128 : Shape := ⟨4, ![8, 128, 128, 128]⟩
abbrev S8x256x256x128 : Shape := ⟨4, ![8, 256, 256, 128]⟩
abbrev S1x16x128x128 : Shape := ⟨4, ![1, 16, 128, 128]⟩
abbrev S1x32x256x128 : Shape := ⟨4, ![1, 32, 256, 128]⟩
abbrev S16x128x128 : Shape := ⟨3, ![16, 128, 128]⟩
abbrev S16x128x1x128 : Shape := ⟨4, ![16, 128, 1, 128]⟩
abbrev S16x128x2x128 : Shape := ⟨4, ![16, 128, 2, 128]⟩
abbrev S16x256x128 : Shape := ⟨3, ![16, 256, 128]⟩
abbrev S16x1x256x128 : Shape := ⟨4, ![16, 1, 256, 128]⟩
abbrev S16x2x256x128 : Shape := ⟨4, ![16, 2, 256, 128]⟩
abbrev S32x256x128 : Shape := ⟨3, ![32, 256, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .i32⟩
  | .hbm, ⟨2, _⟩ => ⟨S8x256x256x128, .f32⟩
  | .local _ .vmem, ⟨0, _⟩ => ⟨S1x16x128x128, .i32⟩
  | .local _ .vmem, ⟨1, _⟩ => ⟨S1x16x128x128, .i32⟩
  | .local _ .vmem, ⟨2, _⟩ => ⟨S1x16x128x128, .f32⟩
  | .local _ .vmem, ⟨3, _⟩ => ⟨S1x16x128x128, .f32⟩
  | .local _ .vmem, ⟨4, _⟩ => ⟨S1x32x256x128, .f32⟩
  | .local _ .vmem, ⟨5, _⟩ => ⟨S1x32x256x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S16x128x1x128 : S16x128x128.ShapeCasts S16x128x1x128
  concatenates_S16x128x1x128_S16x128x1x128_S16x128x2x128_d2 : Shape.Concatenates [S16x128x1x128, S16x128x1x128] S16x128x2x128 2
  shapeCasts_S16x128x2x128_S16x256x128 : S16x128x2x128.ShapeCasts S16x256x128
  shapeCasts_S16x256x128_S16x1x256x128 : S16x256x128.ShapeCasts S16x1x256x128
  concatenates_S16x1x256x128_S16x1x256x128_S16x2x256x128_d1 : Shape.Concatenates [S16x1x256x128, S16x1x256x128] S16x2x256x128 1
  shapeCasts_S16x2x256x128_S32x256x128 : S16x2x256x128.ShapeCasts S32x256x128
  inb_S1x32x256x128_S1x32x256x128_0_0_0_0 : ∀ a, (![0, 0, 0, 0] : Fin 4 → Nat) a + S1x32x256x128.size a ≤ S1x32x256x128.size a
  h_S1x32x256x128 : 0 < S1x32x256x128.numel
  shapeCasts_S1x32x256x128_S32x256x128 : S1x32x256x128.ShapeCasts S32x256x128
  shapeCasts_S32x256x128_S1x32x256x128 : S32x256x128.ShapeCasts S1x32x256x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x128.size a ≤ S8x128x128x128.size a
  hwx0_0 : ∀ i : grid0.Coords, EltTy.bits .i32 = 32 ∨ (Rect.block (s := S8x128x128x128) S1x16x128x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x128.size a ≤ S8x128x128x128.size a
  hwx0_1 : ∀ i : grid0.Coords, EltTy.bits .f32 = 32 ∨ (Rect.block (s := S8x128x128x128) S1x16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256x128.size a ≤ S8x256x256x128.size a
  hwx0_2 : ∀ i : grid0.Coords, EltTy.bits .f32 = 32 ∨ (Rect.block (s := S8x256x256x128) S1x32x256x128.size (cc0_transform_2 i) (hinb0_2 i)).WholeWords (EltTy.packing .f32)

variable [Facts₀]

abbrev win0_0 : Pipeline.Window sig grid0 :=
  Pipeline.Window.ofSpec (Memref.whole main_arg1) S1x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x128x128 : Shape := ⟨4, ![8, 128, 128, 128]⟩
abbrev S_ : Shape := ⟨0, ![]⟩
abbrev S128 : Shape := ⟨1, ![128]⟩
abbrev S1x1x1x128 : Shape := ⟨4, ![1, 1, 1, 128]⟩
abbrev S8 : Shape := ⟨1, ![8]⟩
abbrev S8x1x1x1 : Shape := ⟨4, ![8, 1, 1, 1]⟩
abbrev S8x256x256x128 : Shape := ⟨4, ![8, 256, 256, 128]⟩
abbrev S8x128x128x128x1 : Shape := ⟨5, ![8, 128, 128, 128, 1]⟩
abbrev S8x128x128x128x4 : Shape := ⟨5, ![8, 128, 128, 128, 4]⟩

abbrev nBuf : Space → Nat
  | .hbm => 102
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .i32⟩
  | .hbm, ⟨2, _⟩ => ⟨S_, .i32⟩
  | .hbm, ⟨3, _⟩ => ⟨S_, .i32⟩
  | .hbm, ⟨4, _⟩ => ⟨S8x128x128x128, .i32⟩
  | .hbm, ⟨5, _⟩ => ⟨S8x128x128x128, .i32⟩
  | .hbm, ⟨6, _⟩ => ⟨S8x128x128x128, .i32⟩
  | .hbm, ⟨7, _⟩ => ⟨S_, .i32⟩
  | .hbm, ⟨8, _⟩ => ⟨S8x128x128x128, .i32⟩
  | .hbm, ⟨9, _⟩ => ⟨S8x128x128x128, .i1⟩
  | .hbm, ⟨10, _⟩ => ⟨S8x128x128x128, .i32⟩
  | .hbm, ⟨11, _⟩ => ⟨S8x128x128x128, .i32⟩
  | .hbm, ⟨12, _⟩ => ⟨S_, .i32⟩
  | .hbm, ⟨13, _⟩ => ⟨S8x128x128x128, .i32⟩
  | .hbm, ⟨14, _⟩ => ⟨S8x128x128x128, .i1⟩
  | .hbm, ⟨15, _⟩ => ⟨S8x128x128x128, .i1⟩
  | .hbm, ⟨16, _⟩ => ⟨S_, .i32⟩
  | .hbm, ⟨17, _⟩ => ⟨S8x128x128x128, .i32⟩
  | .hbm, ⟨18, _⟩ => ⟨S8x128x128x128, .i32⟩
  | .hbm, ⟨19, _⟩ => ⟨S8x128x128x128, .i32⟩
  | .hbm, ⟨20, _⟩ => ⟨S_, .i32⟩
  | .hbm, ⟨21, _⟩ => ⟨S_, .i32⟩
  | .hbm, ⟨22, _⟩ => ⟨S8x128x128x128, .i32⟩
  | .hbm, ⟨23, _⟩ => ⟨S8x128x128x128, .i32⟩
  | .hbm, ⟨24, _⟩ => ⟨S8x128x128x128, .i32⟩
  | .hbm, ⟨25, _⟩ => ⟨S_, .i32⟩
  | .hbm, ⟨26, _⟩ => ⟨S8x128x128x128, .i32⟩
  | .hbm, ⟨27, _⟩ => ⟨S8x128x128x128, .i1⟩
  | .hbm, ⟨28, _⟩ => ⟨S8x128x128x128, .i32⟩
  | .hbm, ⟨29, _⟩ => ⟨S8x128x128x128, .i32⟩
  | .hbm, ⟨30, _⟩ => ⟨S_, .i32⟩
  | .hbm, ⟨31, _⟩ => ⟨S8x128x128x128, .i32⟩
  | .hbm, ⟨32, _⟩ => ⟨S8x128x128x128, .i1⟩
  | .hbm, ⟨33, _⟩ => ⟨S8x128x128x128, .i1⟩
  | .hbm, ⟨34, _⟩ => ⟨S_, .i32⟩
  | .hbm, ⟨35, _⟩ => ⟨S8x128x128x128, .i32⟩
  | .hbm, ⟨36, _⟩ => ⟨S8x128x128x128, .i32⟩
  | .hbm, ⟨37, _⟩ => ⟨S8x128x128x128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S8x128x128x128, .i32⟩
  | .hbm, ⟨45, _⟩ => ⟨S8x128x128x128, .i32⟩
  | .hbm, ⟨46, _⟩ => ⟨S_, .i32⟩
  | .hbm, ⟨47, _⟩ => ⟨S8x128x128x128, .i32⟩
  | .hbm, ⟨48, _⟩ => ⟨S8x128x128x128, .i1⟩
  | .hbm, ⟨49, _⟩ => ⟨S_, .i32⟩
  | .hbm, ⟨50, _⟩ => ⟨S8x128x128x128, .i32⟩
  | .hbm, ⟨51, _⟩ => ⟨S8x128x128x128, .i1⟩
  | .hbm, ⟨52, _⟩ => ⟨S_, .i32⟩
  | .hbm, ⟨53, _⟩ => ⟨S_, .i1⟩
  | .hbm, ⟨54, _⟩ => ⟨S8x128x128x128, .i1⟩
  | .hbm, ⟨55, _⟩ => ⟨S8x128x128x128, .i1⟩
  | .hbm, ⟨56, _⟩ => ⟨S8x128x128x128, .i1⟩
  | .hbm, ⟨57, _⟩ => ⟨S8x128x128x128, .i32⟩
  | .hbm, ⟨58, _⟩ => ⟨S8x128x128x128, .i32⟩
  | .hbm, ⟨59, _⟩ => ⟨S8x128x128x128, .i32⟩
  | .hbm, ⟨60, _⟩ => ⟨S128, .i32⟩
  | .hbm, ⟨61, _⟩ => ⟨S1x1x1x128, .i32⟩
  | .hbm, ⟨62, _⟩ => ⟨S8, .i32⟩
  | .hbm, ⟨63, _⟩ => ⟨S8x1x1x1, .i32⟩
  | .hbm, ⟨64, _⟩ => ⟨S_, .f32⟩
  | .hbm, ⟨65, _⟩ => ⟨S8x256x256x128, .f32⟩
  | .hbm, ⟨66, _⟩ => ⟨S_, .i32⟩
  | .hbm, ⟨67, _⟩ => ⟨S8x1x1x1, .i32⟩
  | .hbm, ⟨68, _⟩ => ⟨S8x1x1x1, .i1⟩
  | .hbm, ⟨69, _⟩ => ⟨S_, .i32⟩
  | .hbm, ⟨70, _⟩ => ⟨S8x1x1x1, .i32⟩
  | .hbm, ⟨71, _⟩ => ⟨S8x1x1x1, .i32⟩
  | .hbm, ⟨72, _⟩ => ⟨S8x1x1x1, .i32⟩
  | .hbm, ⟨73, _⟩ => ⟨S_, .i32⟩
  | .hbm, ⟨74, _⟩ => ⟨S8x128x128x128, .i32⟩
  | .hbm, ⟨75, _⟩ => ⟨S8x128x128x128, .i1⟩
  | .hbm, ⟨76, _⟩ => ⟨S_, .i32⟩
  | .hbm, ⟨77, _⟩ => ⟨S8x128x128x128, .i32⟩
  | .hbm, ⟨78, _⟩ => ⟨S8x128x128x128, .i32⟩
  | .hbm, ⟨79, _⟩ => ⟨S8x128x128x128, .i32⟩
  | .hbm, ⟨80, _⟩ => ⟨S_, .i32⟩
  | .hbm, ⟨81, _⟩ => ⟨S8x128x128x128, .i32⟩
  | .hbm, ⟨82, _⟩ => ⟨S8x128x128x128, .i1⟩
  | .hbm, ⟨83, _⟩ => ⟨S_, .i32⟩
  | .hbm, ⟨84, _⟩ => ⟨S8x128x128x128, .i32⟩
  | .hbm, ⟨85, _⟩ => ⟨S8x128x128x128, .i32⟩
  | .hbm, ⟨86, _⟩ => ⟨S8x128x128x128, .i32⟩
  | .hbm, ⟨87, _⟩ => ⟨S_, .i32⟩
  | .hbm, ⟨88, _⟩ => ⟨S1x1x1x128, .i32⟩
  | .hbm, ⟨89, _⟩ => ⟨S1x1x1x128, .i1⟩
  | .hbm, ⟨90, _⟩ => ⟨S_, .i32⟩
  | .hbm, ⟨91, _⟩ => ⟨S1x1x1x128, .i32⟩
  | .hbm, ⟨92, _⟩ => ⟨S1x1x1x128, .i32⟩
  | .hbm, ⟨93, _⟩ => ⟨S1x1x1x128, .i32⟩
  | .hbm, ⟨94, _⟩ => ⟨S8x128x128x128, .i32⟩
  | .hbm, ⟨95, _⟩ => ⟨S8x128x128x128, .i32⟩
  | .hbm, ⟨96, _⟩ => ⟨S8x128x128x128x1, .i32⟩
  | .hbm, ⟨97, _⟩ => ⟨S8x128x128x128x1, .i32⟩
  | .hbm, ⟨98, _⟩ => ⟨S8x128x128x128x1, .i32⟩
  | .hbm, ⟨99, _⟩ => ⟨S8x128x128x128x1, .i32⟩
  | .hbm, ⟨100, _⟩ => ⟨S8x128x128x128x4, .i32⟩
  | .hbm, ⟨101, _⟩ => ⟨S8x256x256x128, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v1 : Ref sig .tc := ⟨.hbm, 37, rfl⟩
abbrev main_c_1 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_cst : Ref sig .tc := ⟨.hbm, 64, rfl⟩
abbrev main_v7 : Ref sig .tc := ⟨.hbm, 65, rfl⟩
abbrev main_c_2 : Ref sig .tc := ⟨.hbm, 66, rfl⟩
abbrev main_v8 : Ref sig .tc := ⟨.hbm, 67, rfl⟩
abbrev main_v9 : Ref sig .tc := ⟨.hbm, 68, rfl⟩
abbrev main_c_3 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_c_4 : Ref sig .tc := ⟨.hbm, 73, rfl⟩
abbrev main_v13 : Ref sig .tc := ⟨.hbm, 74, rfl⟩
abbrev main_v14 : Ref sig .tc := ⟨.hbm, 75, rfl⟩
abbrev main_c_5 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_c_6 : Ref sig .tc := ⟨.hbm, 80, rfl⟩
abbrev main_v18 : Ref sig .tc := ⟨.hbm, 81, rfl⟩
abbrev main_v19 : Ref sig .tc := ⟨.hbm, 82, rfl⟩
abbrev main_c_7 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_c_8 : Ref sig .tc := ⟨.hbm, 87, rfl⟩
abbrev main_v23 : Ref sig .tc := ⟨.hbm, 88, rfl⟩
abbrev main_v24 : Ref sig .tc := ⟨.hbm, 89, rfl⟩
abbrev main_c_9 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩

abbrev nD : Nat := 1
abbrev τ : Topo := Topo.v7x

variable {F : FTy → Type} [FloatOps F]

class Facts₀ : Prop where
  bcast_S_S8x128x128x128 : S_.BroadcastsInDim S8x128x128x128 (![] : Fin 0 → Fin S8x128x128x128.rank)
  bcast_S128_S1x1x1x128_3 : S128.BroadcastsInDim S1x1x1x128 (![3] : Fin 1 → Fin S1x1x1x128.rank)
  bcast_S8_S8x1x1x1_0 : S8.BroadcastsInDim S8x1x1x1 (![0] : Fin 1 → Fin S8x1x1x1.rank)
  bcast_S_S8x256x256x128 : S_.BroadcastsInDim S8x256x256x128 (![] : Fin 0 → Fin S8x256x256x128.rank)
  bcast_S_S8x1x1x1 : S_.BroadcastsInDim S8x1x1x1 (![] : Fin 0 → Fin S8x1x1x1.rank)
  bcast_S_S1x1x1x128 : S_.BroadcastsInDim S1x1x1x128 (![] : Fin 0 → Fin S1x1x1x128.rank)
  bcast_S8x1x1x1_S8x128x128x128_0_1_2_3 : S8x1x1x1.BroadcastsInDim S8x128x128x128 (![0, 1, 2, 3] : Fin 4 → Fin S8x128x128x128.rank)
  bcast_S1x1x1x128_S8x128x128x128_0_1_2_3 : S1x1x1x128.BroadcastsInDim S8x128x128x128 (![0, 1, 2, 3] : Fin 4 → Fin S8x128x128x128.rank)
  bcast_S8x128x128x128_S8x128x128x128x1_0_1_2_3 : S8x128x128x128.BroadcastsInDim S8x128x128x128x1 (![0, 1, 2, 3] : Fin 4 → Fin S8x128x128x128x1.rank)
  concatenates_S8x128x128x128x1_S8x128x128x128x1_S8x128x128x128x1_S8x128x128x128x1_S8x128x128x128x4_d4 : Shape.Concatenates [S8x128x128x128x1, S8x128x128x128x1, S8x128x128x128x1, S8x128x128x128x1] S8x128x128x128x4 4
  scatter_S8x256x256x128_S8x128x128x128x4_S8x128x128x128_n_0123_0123_4_wf : ScatterDims.WF S8x256x256x128 S8x128x128x128x4 S8x128x128x128 [] [0, 1, 2, 3] [0, 1, 2, 3] 4

variable [Facts₀]

def scatter_S8x256x256x128_S8x128x128x128x4_S8x128x128x128_n_0123_0123_4 : ScatterDims S8x256x256x128 S8x128x128x128x4 S8x128x128x128 where
  updateWindowDims := []
  insertedWindowDims := [0, 1, 2, 3]
  scatterDimsToOperandDims := [0, 1, 2, 3]
  indexVectorDim := 4
  wf := scatter_S8x256x256x128_S8x128x128x128x4_S8x128x128x128_n_0123_0123_4_wf

class Facts : Prop extends Facts₀ where

variable [Facts]
-- ==== Proof.Spec.lean ====
/-
  The unpooled array, as one function of the mask and the updates.

  Every mask word m carries two bits the kernel reads: bit 15 (the row offset dy inside a 2×2 window of the
  [256, 256, 128] plane, whose row stride is 2^15 words) and bit 7 (the column offset dx, the column stride being
  2^7 words). Output entry (b, Y, X, c) looks at the input entry (b, Y / 2, X / 2, c) and holds its update exactly
  when that entry's two bits are the parities (Y mod 2, X mod 2); it holds zero otherwise.
-/
import Idealize.ShloMosaic.PureOps.Ideal
import Idealize.ShloMosaic.Lib.ValueIdx

noncomputable section

namespace Cert.Unpool

open Idealize.ShloMosaic Idealize.ShloMosaic.ValueIdx

/-- The pooled (input) extents [8, 128, 128, 128] and the unpooled (output) extents [8, 256, 256, 128]. -/
abbrev SIn : Shape := ⟨4, ![8, 128, 128, 128]⟩
abbrev SOut : Shape := ⟨4, ![8, 256, 256, 128]⟩

/-- Bit 15 of a mask word: the row offset inside the 2×2 window (arithmetic shift, then the low bit). -/
def dyBit (m : BitVec 32) : BitVec 32 := IntOp.andi (IntOp.shrsi .vector m 15#32) 1#32
/-- Bit 7 of a mask word: the column offset inside the 2×2 window. -/
def dxBit (m : BitVec 32) : BitVec 32 := IntOp.andi (IntOp.shrsi .vector m 7#32) 1#32

/-- The window an output row or column belongs to: half its position (over the whole plane, and inside one block of
    32 output rows). -/
def half256 (Y : Fin 256) : Fin 128 := ⟨Y.val / 2, by have := Y.isLt; omega⟩
def half32 (Y : Fin 32) : Fin 16 := ⟨Y.val / 2, by have := Y.isLt; omega⟩

/-- Output entry (b, Y, X, c): the update of input entry (b, Y/2, X/2, c) when that entry's offset bits are the
    parities of Y and X, zero otherwise. -/
def unpoolAt (M : IVec SIn 32) (U : FVec Ideal SIn .f32) (b : Fin 8) (Y X : Fin 256) (c : Fin 128) : EReal :=
  if dyBit (M (ix4 b (half256 Y) (half256 X) c)) = BitVec.ofNat 32 (Y.val % 2)
      ∧ dxBit (M (ix4 b (half256 Y) (half256 X) c)) = BitVec.ofNat 32 (X.val % 2)
  then U (ix4 b (half256 Y) (half256 X) c) else 0

/-- The unpooled array. -/
def unpool (M : IVec SIn 32) (U : FVec Ideal SIn .f32) : FVec Ideal SOut .f32 :=
  fun j => unpoolAt M U (j 0) (j 1) (j 2) (j 3)

theorem unpool_apply (M : IVec SIn 32) (U : FVec Ideal SIn .f32) (b : Fin 8) (Y X : Fin 256) (c : Fin 128) :
    unpool M U (ix4 b Y X c) = unpoolAt M U b Y X c := rfl

end Cert.Unpool

end
-- ==== Proof.KernelBlock.lean ====
/-
  One grid point of the kernel: the block it leaves in the output window, entry by entry.

  The body reads a block of mask words x0 and a block of updates x1, both [1, 16, 128, 128], makes four copies of the
  updates — each keeps an entry where the entry's two offset bits (dy, dx) are one of (0,0), (0,1), (1,0), (1,1), zero
  elsewhere —, interleaves the copies with dx = 0 and dx = 1 along the columns and then the two results along the
  rows, and stores the [1, 32, 256, 128] block. So entry (0, Y, X, c) of the stored block is the update at
  (0, Y / 2, X / 2, c) when that entry's bits are (Y mod 2, X mod 2), and zero otherwise.
-/
import proofs.«426952_j80908593922393_1_alg».proof.Proof.Gen.KernelIdeal.Frame
import proofs.«426952_j80908593922393_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.Unpool

section Layout
variable {α : Type}

/-- Adding a unit axis in third place: entry (y, x, 0, c) of the cast is entry (y, x, c). -/
private theorem addUnit2_apply (a : S16x128x128.Idx → α) (h : S16x128x128.ShapeCasts S16x128x1x128)
    (y : Fin 16) (x : Fin 128) (z : Fin 1) (c : Fin 128) :
    shapeCast S16x128x1x128 a h (ix4 y x z c) = a (ix3 y x c) := by
  refine shapeCast_apply _ _ _ _ ?_
  rw [Shape.rowMajor_val_three, Shape.rowMajor_val_four]
  have hz : z.val < 1 := z.isLt
  show (y.val * 128 + x.val) * 128 + c.val = ((y.val * 128 + x.val) * 1 + z.val) * 128 + c.val
  omega

/-- Two arrays laid side by side on a new third axis of thickness two: entry (y, x, p, c) is the first array's
    (y, x, c) when p = 0 and the second's when p = 1. -/
private theorem pairCols_apply (a b : S16x128x128.Idx → α) (h h' : S16x128x128.ShapeCasts S16x128x1x128)
    (hc : Shape.Concatenates [S16x128x1x128, S16x128x1x128] S16x128x2x128 2)
    (y : Fin 16) (x : Fin 128) (p : Fin 2) (c : Fin 128) :
    concatenate S16x128x2x128 2 [⟨S16x128x1x128, shapeCast S16x128x1x128 a h⟩, ⟨S16x128x1x128, shapeCast S16x128x1x128 b h'⟩] hc
        (ix4 y x p c)
      = if p.val = 0 then a (ix3 y x c) else b (ix3 y x c) := by
  by_cases hp : p.val = 0
  · rw [if_pos hp]
    refine (concatenate_pair_apply_left _ _ _ hc _ rfl (ix4 y x (0 : Fin 1) c) (fun b => ?_)).trans (addUnit2_apply a h y x 0 c)
    match b with
    | ⟨0, _⟩ => rfl
    | ⟨1, _⟩ => rfl
    | ⟨2, _⟩ => exact hp.symm
    | ⟨3, _⟩ => rfl
  · rw [if_neg hp]
    have hp1 : p.val = 1 := by have := p.isLt; omega
    refine (concatenate_pair_apply_right _ _ _ hc _ rfl rfl (ix4 y x (0 : Fin 1) c) (fun b hb => ?_) ?_).trans (addUnit2_apply b h' y x 0 c)
    · match b with
      | ⟨0, _⟩ => rfl
      | ⟨1, _⟩ => rfl
      | ⟨2, _⟩ => exact absurd rfl hb
      | ⟨3, _⟩ => rfl
    · show 0 + 1 = p.val
      omega

/-- Merging the pair axis into the columns: column X of 256 is pair member X mod 2 at column X / 2. -/
private theorem mergeCols_apply (v : S16x128x2x128.Idx → α) (h : S16x128x2x128.ShapeCasts S16x256x128)
    (y : Fin 16) (X : Fin 256) (c : Fin 128) :
    shapeCast S16x256x128 v h (ix3 y X c)
      = v (ix4 y (half256 X) (⟨X.val % 2, Nat.mod_lt _ (by decide)⟩ : Fin 2) c) := by
  refine shapeCast_apply _ _ _ _ ?_
  rw [Shape.rowMajor_val_three, Shape.rowMajor_val_four]
  show ((y.val * 128 + X.val / 2) * 2 + X.val % 2) * 128 + c.val = (y.val * 256 + X.val) * 128 + c.val
  omega

/-- The column interleave of two arrays: column X holds the first array's column X / 2 when X is even and the
    second's when X is odd. -/
private theorem interleaveCols_apply (a b : S16x128x128.Idx → α) (h h' : S16x128x128.ShapeCasts S16x128x1x128)
    (hc : Shape.Concatenates [S16x128x1x128, S16x128x1x128] S16x128x2x128 2)
    (hm : S16x128x2x128.ShapeCasts S16x256x128) (y : Fin 16) (X : Fin 256) (c : Fin 128) :
    shapeCast S16x256x128
        (concatenate S16x128x2x128 2 [⟨S16x128x1x128, shapeCast S16x128x1x128 a h⟩, ⟨S16x128x1x128, shapeCast S16x128x1x128 b h'⟩] hc)
        hm (ix3 y X c)
      = if X.val % 2 = 0 then a (ix3 y (half256 X) c) else b (ix3 y (half256 X) c) := by
  rw [mergeCols_apply, pairCols_apply]

/-- Adding a unit axis in second place: entry (y, 0, X, c) of the cast is entry (y, X, c). -/
private theorem addUnit1_apply (a : S16x256x128.Idx → α) (h : S16x256x128.ShapeCasts S16x1x256x128)
    (y : Fin 16) (z : Fin 1) (X : Fin 256) (c : Fin 128) :
    shapeCast S16x1x256x128 a h (ix4 y z X c) = a (ix3 y X c) := by
  refine shapeCast_apply _ _ _ _ ?_
  rw [Shape.rowMajor_val_three, Shape.rowMajor_val_four]
  have hz : z.val < 1 := z.isLt
  show (y.val * 256 + X.val) * 128 + c.val = ((y.val * 1 + z.val) * 256 + X.val) * 128 + c.val
  omega

/-- Two arrays laid one over the other on a new second axis of thickness two: entry (y, p, X, c) is the first
    array's (y, X, c) when p = 0 and the second's when p = 1. -/
private theorem pairRows_apply (a b : S16x256x128.Idx → α) (h h' : S16x256x128.ShapeCasts S16x1x256x128)
    (hc : Shape.Concatenates [S16x1x256x128, S16x1x256x128] S16x2x256x128 1)
    (y : Fin 16) (p : Fin 2) (X : Fin 256) (c : Fin 128) :
    concatenate S16x2x256x128 1 [⟨S16x1x256x128, shapeCast S16x1x256x128 a h⟩, ⟨S16x1x256x128, shapeCast S16x1x256x128 b h'⟩] hc
        (ix4 y p X c)
      = if p.val = 0 then a (ix3 y X c) else b (ix3 y X c) := by
  by_cases hp : p.val = 0
  · rw [if_pos hp]
    refine (concatenate_pair_apply_left _ _ _ hc _ rfl (ix4 y (0 : Fin 1) X c) (fun b => ?_)).trans (addUnit1_apply a h y 0 X c)
    match b with
    | ⟨0, _⟩ => rfl
    | ⟨1, _⟩ => exact hp.symm
    | ⟨2, _⟩ => rfl
    | ⟨3, _⟩ => rfl
  · rw [if_neg hp]
    have hp1 : p.val = 1 := by have := p.isLt; omega
    refine (concatenate_pair_apply_right _ _ _ hc _ rfl rfl (ix4 y (0 : Fin 1) X c) (fun b hb => ?_) ?_).trans (addUnit1_apply b h' y 0 X c)
    · match b with
      | ⟨0, _⟩ => rfl
      | ⟨1, _⟩ => exact absurd rfl hb
      | ⟨2, _⟩ => rfl
      | ⟨3, _⟩ => rfl
    · show 0 + 1 = p.val
      omega

/-- Merging the pair axis into the rows: row Y of 32 is pair member Y mod 2 at row Y / 2. -/
private theorem mergeRows_apply (v : S16x2x256x128.Idx → α) (h : S16x2x256x128.ShapeCasts S32x256x128)
    (Y : Fin 32) (X : Fin 256) (c : Fin 128) :
    shapeCast S32x256x128 v h (ix3 Y X c)
      = v (ix4 (half32 Y) (⟨Y.val % 2, Nat.mod_lt _ (by decide)⟩ : Fin 2) X c) := by
  refine shapeCast_apply _ _ _ _ ?_
  rw [Shape.rowMajor_val_three, Shape.rowMajor_val_four]
  show (((Y.val / 2) * 2 + Y.val % 2) * 256 + X.val) * 128 + c.val = (Y.val * 256 + X.val) * 128 + c.val
  omega

/-- The row interleave of two arrays: row Y holds the first array's row Y / 2 when Y is even and the second's
    when Y is odd. -/
private theorem interleaveRows_apply (a b : S16x256x128.Idx → α) (h h' : S16x256x128.ShapeCasts S16x1x256x128)
    (hc : Shape.Concatenates [S16x1x256x128, S16x1x256x128] S16x2x256x128 1)
    (hm : S16x2x256x128.ShapeCasts S32x256x128) (Y : Fin 32) (X : Fin 256) (c : Fin 128) :
    shapeCast S32x256x128
        (concatenate S16x2x256x128 1 [⟨S16x1x256x128, shapeCast S16x1x256x128 a h⟩, ⟨S16x1x256x128, shapeCast S16x1x256x128 b h'⟩] hc)
        hm (ix3 Y X c)
      = if Y.val % 2 = 0 then a (ix3 (half32 Y) X c) else b (ix3 (half32 Y) X c) := by
  rw [mergeRows_apply, pairRows_apply]

/-- Adding the leading unit axis of the block: entry (0, Y, X, c) of the cast is entry (Y, X, c). -/
private theorem addUnit0_apply (a : S32x256x128.Idx → α) (h : S32x256x128.ShapeCasts S1x32x256x128)
    (z : Fin 1) (Y : Fin 32) (X : Fin 256) (c : Fin 128) :
    shapeCast S1x32x256x128 a h (ix4 z Y X c) = a (ix3 Y X c) := by
  refine shapeCast_apply _ _ _ _ ?_
  rw [Shape.rowMajor_val_three, Shape.rowMajor_val_four]
  have hz : z.val < 1 := z.isLt
  show (Y.val * 256 + X.val) * 128 + c.val = ((z.val * 32 + Y.val) * 256 + X.val) * 128 + c.val
  omega

/-- Dropping the leading unit axis of a block: entry (y, x, c) of the cast is entry (0, y, x, c). -/
private theorem dropUnit0_apply (a : S1x16x128x128.Idx → α) (h : S1x16x128x128.ShapeCasts S16x128x128)
    (y : Fin 16) (x : Fin 128) (c : Fin 128) :
    shapeCast S16x128x128 a h (ix3 y x c) = a (ix4 (0 : Fin 1) y x c) := by
  refine shapeCast_apply _ _ _ _ ?_
  rw [Shape.rowMajor_val_three, Shape.rowMajor_val_four]
  show ((0 * 16 + y.val) * 128 + x.val) * 128 + c.val = (y.val * 128 + x.val) * 128 + c.val
  omega

end Layout

/-- The stored payload at entry (0, Y, X, c): the copy numbered by the parities of Y and X, at (Y/2, X/2, c). -/
private theorem k0_pay1_apply {F : FTy → Type} [FloatOps F] (p00 p01 p10 p11 : FVec F S16x128x128 .f32) (Y : Fin 32) (X : Fin 256) (c : Fin 128) :
    k0_pay1 p00 p01 p10 p11 (ix4 (0 : Fin 1) Y X c)
      = if Y.val % 2 = 0 then
          (if X.val % 2 = 0 then p00 (ix3 (half32 Y) (half256 X) c) else p01 (ix3 (half32 Y) (half256 X) c))
        else
          (if X.val % 2 = 0 then p10 (ix3 (half32 Y) (half256 X) c) else p11 (ix3 (half32 Y) (half256 X) c)) := by
  unfold k0_pay1
  rw [addUnit0_apply, interleaveRows_apply, interleaveCols_apply, interleaveCols_apply]

/-- The conjunction of two word comparisons, as a one-bit word, is 1 exactly when both equations hold. -/
private theorem both_eq_iff (dy dx a b : BitVec 32) :
    IntOp.andi (IntOp.cmpi .eq dy a) (IntOp.cmpi .eq dx b) = (1 : BitVec 1) ↔ dy = a ∧ dx = b := by
  show BitVec.ofBool (dy == a) &&& BitVec.ofBool (dx == b) = (1 : BitVec 1) ↔ _
  by_cases h1 : dy = a
  · by_cases h2 : dx = b
    · have e1 : (dy == a) = true := beq_iff_eq.mpr h1
      have e2 : (dx == b) = true := beq_iff_eq.mpr h2
      rw [e1, e2]
      exact ⟨fun _ => ⟨h1, h2⟩, fun _ => by decide⟩
    · have e2 : (dx == b) = false := beq_eq_false_iff_ne.mpr h2
      rw [e2]
      refine ⟨fun h => ?_, fun h => absurd h.2 h2⟩
      exfalso; revert h; cases (dy == a) <;> decide
  · have e1 : (dy == a) = false := beq_eq_false_iff_ne.mpr h1
    rw [e1]
    refine ⟨fun h => ?_, fun h => absurd h.1 h1⟩
    exfalso; revert h; cases (dx == b) <;> decide

/-- A select on "both words equal their targets" is the conditional on the two equations. -/
private theorem select_both_eq {β : Type} (dy dx a b : BitVec 32) (u z : β) :
    Scalar.select (IntOp.andi (IntOp.cmpi .eq dy a) (IntOp.cmpi .eq dx b)) u z = if dy = a ∧ dx = b then u else z := by
  unfold Scalar.select
  by_cases h : dy = a ∧ dx = b
  · rw [if_pos h, if_pos ((both_eq_iff dy dx a b).mpr h)]
  · rw [if_neg h, if_neg (fun h' => h ((both_eq_iff dy dx a b).mp h'))]

/-- The block's four zero offsets, as the constant function. -/
private theorem hz4 : (![0, 0, 0, 0] : Fin 4 → Nat) = fun _ => 0 := funext fun a => by fin_cases a <;> rfl

/-- One masked copy of the updates at (y, x, c): the update there when the mask word's two offset bits are (a, b),
    zero otherwise. -/
private theorem copy_apply (x0 : Vec Ideal S1x16x128x128 .i32) (x1 : Vec Ideal S1x16x128x128 .f32) (a b : BitVec 32)
    (y : Fin 16) (x : Fin 128) (c : Fin 128) :
    select (andi (cmpi .eq (k0_pay4 (F := Ideal) x0) (broadcast S16x128x128 a)) (cmpi .eq (k0_pay5 (F := Ideal) x0) (broadcast S16x128x128 b)))
        (k0_pay3 (F := Ideal) x1) (k0_pay6 (F := Ideal)) (ix3 y x c)
      = if dyBit (x0 (ix4 (0 : Fin 1) y x c)) = a ∧ dxBit (x0 (ix4 (0 : Fin 1) y x c)) = b
        then x1 (ix4 (0 : Fin 1) y x c) else (0 : EReal) := by
  show Scalar.select (IntOp.andi (IntOp.cmpi .eq (dyBit (k0_pay2 (F := Ideal) x0 (ix3 y x c))) a)
      (IntOp.cmpi .eq (dxBit (k0_pay2 (F := Ideal) x0 (ix3 y x c))) b)) (k0_pay3 (F := Ideal) x1 (ix3 y x c)) (Ideal.ofBits .f32 0x00000000#32) = _
  rw [select_both_eq, Ideal.ofBits_zero_f32]
  unfold k0_pay2 k0_pay3
  rw [dropUnit0_apply, dropUnit0_apply]

/-- The stored block at entry (0, Y, X, c). -/
theorem out0_2_apply (x0 : Vec Ideal S1x16x128x128 .i32) (x1 : Vec Ideal S1x16x128x128 .f32)
    (Y : Fin 32) (X : Fin 256) (c : Fin 128) :
    out0_2 (F := Ideal) x0 x1 (ix4 (0 : Fin 1) Y X c)
      = if dyBit (x0 (ix4 (0 : Fin 1) (half32 Y) (half256 X) c)) = BitVec.ofNat 32 (Y.val % 2)
            ∧ dxBit (x0 (ix4 (0 : Fin 1) (half32 Y) (half256 X) c)) = BitVec.ofNat 32 (X.val % 2)
        then x1 (ix4 (0 : Fin 1) (half32 Y) (half256 X) c) else (0 : EReal) := by
  unfold out0_2
  rw [View.canon_unit_zero hz4]
  simp only [View.ld_unit_zero (S := S1x16x128x128) hz4]
  rw [k0_pay1_apply]
  unfold k0_pay7 k0_pay8 k0_pay9 k0_pay10
  simp only [copy_apply]
  rcases Nat.mod_two_eq_zero_or_one Y.val with hY | hY <;> rcases Nat.mod_two_eq_zero_or_one X.val with hX | hX
  · rw [hY, hX, if_pos rfl, if_pos rfl]
  · rw [hY, hX, if_pos rfl, if_neg (by decide)]
  · rw [hY, hX, if_neg (by decide), if_pos rfl]
  · rw [hY, hX, if_neg (by decide), if_neg (by decide)]

end Cert.KernelIdeal.Hand

end
-- ==== Proof.KernelValue.lean ====
/-
  The kernel's run at the ideal instance: its result array is the unpooled array of its two arguments.

  Grid point (b, g) of the 8 × 8 grid reads rows 16g … 16g+15 of batch b of the mask and of the updates and writes rows
  32g … 32g+31 of batch b of the result; the 64 blocks tile the result, and each is the restriction of the one function
  `unpool` (output row Y = 32g + Y' looks at input row Y / 2 = 16g + Y' / 2, inside the block the point read).
-/
import proofs.«426952_j80908593922393_1_alg».proof.Proof.Gen.KernelIdeal.Value
import proofs.«426952_j80908593922393_1_alg».proof.Proof.KernelBlock
import proofs.«426952_j80908593922393_1_alg».proof.Proof.Spec

noncomputable section

namespace Cert.KernelIdeal.Hand

open Idealize.ShloMosaic Idealize.ShloMosaic.TcCoe Idealize.ShloMosaic.ValueIdx Idealize.SL.Sem
open Cert.KernelIdeal Cert.KernelIdeal.Gen Cert.Unpool

/-- The three windows' block indices at a grid point: all three are (b, g, 0, 0) with b, g < 8, the point's two
    coordinates. Stated relative to the result window's index, axis by axis. -/
theorem block_indices : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) < 8 ∧ win0_2.index t (1 : Fin 4) < 8
    ∧ win0_2.index t (2 : Fin 4) = 0 ∧ win0_2.index t (3 : Fin 4) = 0 :=
  (by decide +kernel : ∀ t : Fin grid0.N, _)

/-- Every pair (b, g) is the result window's block index (b, g, 0, 0) at some grid point. -/
theorem block_index_onto : ∀ (q0 : Fin 8) (q1 : Fin 8), ∃ t : Fin cfg0.N, win0_2.index t = ![q0.val, q1.val, 0, 0] :=
  (by decide +kernel : ∀ (q0 : Fin 8) (q1 : Fin 8), ∃ t : Fin grid0.N, win0_2.index t = ![q0.val, q1.val, 0, 0])

section Blocks

variable (m : (ℓ : Loc nD τ sig) → Buf (Elt Ideal) ℓ)

/-- The mask block the point (b, g) reads: its entry (0, Y, X, l) is the mask's entry (b, 16g + Y, X, l). -/
theorem mask_block (c : Dev nD) (t : Fin cfg0.N) (Y : Fin 16) (X : Fin 128) (l : Fin 128) (k : SIn.Idx)
    (hk0 : (k 0).val = win0_2.index t (0 : Fin 4)) (hk1 : (k 1).val = 16 * win0_2.index t (1 : Fin 4) + Y.val)
    (hk2 : (k 2).val = X.val) (hk3 : (k 3).val = l.val) :
    (iblk m c 0 t : Vec Ideal S1x16x128x128 .i32) (ix4 (0 : Fin 1) Y X l) = (V m c main_arg1 : IVec SIn 32) k := by
  obtain ⟨e0, e1, e2, e3, -⟩ := block_indices t
  unfold iblk
  rw [View.read_apply]
  show (V m c main_arg1 : IVec SIn 32) (((cfg0.win 0).blk t).view.emb (ix4 (0 : Fin 1) Y X l)) = V m c main_arg1 k
  refine congrArg _ (funext fun a => Fin.ext ?_)
  match a with
  | ⟨0, _⟩ => show win0_0.index t (0 : Fin 4) * 1 + 1 * (0 : Fin 1).val = (k 0).val; rw [e0, hk0]; simp
  | ⟨1, _⟩ => show win0_0.index t (1 : Fin 4) * 16 + 1 * Y.val = (k 1).val; rw [e1, hk1]; omega
  | ⟨2, _⟩ => show win0_0.index t (2 : Fin 4) * 128 + 1 * X.val = (k 2).val; rw [e2, hk2]; omega
  | ⟨3, _⟩ => show win0_0.index t (3 : Fin 4) * 128 + 1 * l.val = (k 3).val; rw [e3, hk3]; omega

/-- The updates block the point (b, g) reads: its entry (0, Y, X, l) is the updates' entry (b, 16g + Y, X, l). -/
theorem updates_block (c : Dev nD) (t : Fin cfg0.N) (Y : Fin 16) (X : Fin 128) (l : Fin 128) (k : SIn.Idx)
    (hk0 : (k 0).val = win0_2.index t (0 : Fin 4)) (hk1 : (k 1).val = 16 * win0_2.index t (1 : Fin 4) + Y.val)
    (hk2 : (k 2).val = X.val) (hk3 : (k 3).val = l.val) :
    (iblk m c 1 t : Vec Ideal S1x16x128x128 .f32) (ix4 (0 : Fin 1) Y X l) = (V m c main_arg0 : FVec Ideal SIn .f32) k := by
  obtain ⟨-, -, -, -, e0, e1, e2, e3, -⟩ := block_indices t
  unfold iblk
  rw [View.read_apply]
  show (V m c main_arg0 : FVec Ideal SIn .f32) (((cfg0.win 1).blk t).view.emb (ix4 (0 : Fin 1) Y X l)) = V m c main_arg0 k
  refine congrArg _ (funext fun a => Fin.ext ?_)
  match a with
  | ⟨0, _⟩ => show win0_1.index t (0 : Fin 4) * 1 + 1 * (0 : Fin 1).val = (k 0).val; rw [e0, hk0]; simp
  | ⟨1, _⟩ => show win0_1.index t (1 : Fin 4) * 16 + 1 * Y.val = (k 1).val; rw [e1, hk1]; omega
  | ⟨2, _⟩ => show win0_1.index t (2 : Fin 4) * 128 + 1 * X.val = (k 2).val; rw [e2, hk2]; omega
  | ⟨3, _⟩ => show win0_1.index t (3 : Fin 4) * 128 + 1 * l.val = (k 3).val; rw [e3, hk3]; omega

/-- Entry (0, Y, X, l) of the block the point (b, g) stores is the unpooled array's entry (b, 32g + Y, X, l): the
    halved row (32g + Y) / 2 = 16g + Y / 2 is row Y / 2 of the blocks the point read, and the parities of 32g + Y and
    of Y are the same. -/
theorem block_entry (c : Dev nD) (t : Fin cfg0.N) (Y : Fin 32) (X : Fin 256) (l : Fin 128) (i : SOut.Idx)
    (hi0 : (i 0).val = win0_2.index t (0 : Fin 4)) (hi1 : (i 1).val = 32 * win0_2.index t (1 : Fin 4) + Y.val)
    (hi2 : (i 2).val = X.val) (hi3 : (i 3).val = l.val) :
    out0_2 (F := Ideal) (iblk m c 0 t) (iblk m c 1 t) (ix4 (0 : Fin 1) Y X l)
      = unpool (V m c main_arg1) (V m c main_arg0) i := by
  obtain ⟨b, Y', X', l', rfl⟩ : ∃ (b : Fin 8) (Y' X' : Fin 256) (l' : Fin 128), i = ix4 b Y' X' l' :=
    ⟨_, _, _, _, eq_ix4 i⟩
  have hb : b.val = win0_2.index t (0 : Fin 4) := hi0
  have hY : Y'.val = 32 * win0_2.index t (1 : Fin 4) + Y.val := hi1
  have hX : X'.val = X.val := hi2
  have hl : l'.val = l.val := hi3
  refine (out0_2_apply _ _ Y X l).trans ?_
  rw [unpool_apply]
  unfold unpoolAt
  have hM := mask_block m c t (half32 Y) (half256 X) l (ix4 b (half256 Y') (half256 X') l') hb
    (by show Y'.val / 2 = 16 * win0_2.index t (1 : Fin 4) + Y.val / 2; omega)
    (by show X'.val / 2 = X.val / 2; omega) hl
  have hU := updates_block m c t (half32 Y) (half256 X) l (ix4 b (half256 Y') (half256 X') l') hb
    (by show Y'.val / 2 = 16 * win0_2.index t (1 : Fin 4) + Y.val / 2; omega)
    (by show X'.val / 2 = X.val / 2; omega) hl
  have pY : Y'.val % 2 = Y.val % 2 := by omega
  have pX : X'.val % 2 = X.val % 2 := by omega
  rw [hM, hU, pY, pX]

/-- What a grid point writes back is its block of the unpooled array of the mask and the updates. -/
theorem flushed_eq_unpool (c : Dev nD) (t : Fin cfg0.N) :
    (dats m 0 c).flushed 2 t
      = ((cfg0.win 2).blk t).view.read (Elt Ideal) (unpool (V m c main_arg1) (V m c main_arg0)) := by
  rw [Value.flushed2]
  obtain ⟨-, -, -, -, -, -, -, -, -, -, e2, e3⟩ := block_indices t
  funext y
  rw [View.read_apply]
  have h0 : (y 0).val < 1 := (y 0).isLt
  have h1 : (y 1).val < 32 := (y 1).isLt
  have h2 : (y 2).val < 256 := (y 2).isLt
  have h3 : (y 3).val < 128 := (y 3).isLt
  have hy : ((cfg0.win 2).xinj (grid0.coords t) y : S1x32x256x128.Idx)
      = ix4 (0 : Fin 1) ⟨(y 1).val, h1⟩ ⟨(y 2).val, h2⟩ ⟨(y 3).val, h3⟩ := by
    funext a
    apply Fin.ext
    match a with
    | ⟨0, _⟩ => show (y 0).val = 0; omega
    | ⟨1, _⟩ => rfl
    | ⟨2, _⟩ => rfl
    | ⟨3, _⟩ => rfl
  show out0_2 (F := Ideal) (iblk m c 0 t) (iblk m c 1 t) ((cfg0.win 2).xinj (grid0.coords t) y)
      = unpool (V m c main_arg1) (V m c main_arg0) (((cfg0.win 2).blk t).view.emb y)
  refine (congrArg (out0_2 (F := Ideal) (iblk m c 0 t) (iblk m c 1 t)) hy).trans ?_
  refine block_entry m c t _ _ _ _ ?_ ?_ ?_ ?_
  · show win0_2.index t (0 : Fin 4) * 1 + 1 * (y 0).val = win0_2.index t (0 : Fin 4); omega
  · show win0_2.index t (1 : Fin 4) * 32 + 1 * (y 1).val = 32 * win0_2.index t (1 : Fin 4) + (y 1).val; omega
  · show win0_2.index t (2 : Fin 4) * 256 + 1 * (y 2).val = (y 2).val; omega
  · show win0_2.index t (3 : Fin 4) * 128 + 1 * (y 3).val = (y 3).val; omega

/-- An index of the result array is in a point's block iff each coordinate is in the block's range on its axis. -/
theorem mem_result_block (t : Fin cfg0.N) (i : S8x256x256x128.Idx) :
    i ∈ ((cfg0.win 2).blk t).view.set
      ↔ ∀ a : Fin 4, win0_2.index t a * S1x32x256x128.size a ≤ (i a).val
          ∧ (i a).val < win0_2.index t a * S1x32x256x128.size a + S1x32x256x128.size a := by
  show i ∈ ((View.whole main_v0).slice (win0_2.rect t)).set ↔ _
  rw [View.set_slice_whole, Rect.mem_set_unit]
  exact Iff.rfl

/-- The 64 blocks cover the result array: entry (b, Y, X, l) is in the block of the point (b, Y / 32). -/
theorem result_covered (i : S8x256x256x128.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 256 := (i 2).isLt
  have hi3 : (i 3).val < 128 := (i 3).isLt
  obtain ⟨t, ht⟩ := block_index_onto ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_result_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 256 ≤ (i 2).val ∧ (i 2).val < win0_2.index t (2 : Fin 4) * 256 + 256; omega
  | ⟨3, _⟩ => show win0_2.index t (3 : Fin 4) * 128 ≤ (i 3).val ∧ (i 3).val < win0_2.index t (3 : Fin 4) * 128 + 128; omega

/-- The result array after the last grid point is the unpooled array of the mask and the updates. -/
theorem result_eq_unpool (c : Dev nD) :
    (dats m 0 c).arrAt 2 cfg0.N = unpool (V m c main_arg1) (V m c main_arg0) :=
  (dats m 0 c).arrAt_eq_of_cover 2 (unpool (V m c main_arg1) (V m c main_arg0))
    (fun t _ => flushed_eq_unpool m c t) result_covered

end Blocks

/-- Every weakly fair execution of the idealized kernel's program ends with the result array at the unpooled array of
    the mask (argument 1) and the updates (argument 0), the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0)
          = unpool (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq_unpool m c), (h c).2⟩) (Value.run_blocks m ρ)

end Cert.KernelIdeal.Hand

end
-- ==== Proof.RefTerm.lean ====
/-
  The reference's result as one pure term of its two arguments.

  The reference decodes every mask word m into a row y = floor(m / 2^15) and a column x = floor(m / 2^7) mod 2^8 of the
  [256, 256, 128] plane — jnp's floor division (the truncating quotient, one less when the signs differ and the
  remainder is not zero) and jnp's remainder (the truncating remainder, the divisor added when the signs differ and it
  is not zero) —, wraps a negative coordinate once by the extent, pairs them with the batch number and the channel
  number (each an iota, wrapped the same way) into a table of four words per input entry, and adds every update into
  a zero array at the position its four words name.
-/
import proofs.«426952_j80908593922393_1_alg».proof.ReferenceIdeal

noncomputable section

namespace Cert.ReferenceIdeal.Hand

open Idealize.ShloMosaic Cert.ReferenceIdeal
open Cert.ReferenceIdeal.Facts₀

variable [Facts]
variable {F : FTy → Type} [FloatOps F]

/-- A word splat over the pooled extents. -/
def splat (k : IVec S_ 32) : IVec S8x128x128x128 32 := broadcastInDim S8x128x128x128 ![] bcast_S_S8x128x128x128 k

/-- jnp's floor division of every word of x by the scalar k. -/
def floorDiv (x : IVec S8x128x128x128 32) (k : IVec S_ 32) : IVec S8x128x128x128 32 :=
  select (andi (cmpi .ne (signi x) (splat (signi k))) (cmpi .ne (Host.remsi x (splat k)) (splat (constantI S_ 32 0#32))))
    (subi (Host.divsi x (splat k)) (splat (constantI S_ 32 1#32))) (Host.divsi x (splat k))

/-- The divisor jnp's remainder really divides by: 1 in place of 0. -/
def safeDivisor (k : IVec S_ 32) : IVec S_ 32 := select (cmpi .eq k (constantI S_ 32 0#32)) (constantI S_ 32 1#32) k

/-- jnp's remainder of every word of x by the scalar k. -/
def remd (x : IVec S8x128x128x128 32) (k : IVec S_ 32) : IVec S8x128x128x128 32 :=
  select
    (andi
      (cmpi .ne (cmpi .slt (Host.remsi x (splat (safeDivisor k))) (splat (constantI S_ 32 0#32)))
        (broadcastInDim S8x128x128x128 ![] bcast_S_S8x128x128x128 (cmpi .slt (safeDivisor k) (constantI S_ 32 0#32))))
      (cmpi .ne (Host.remsi x (splat (safeDivisor k))) (splat (constantI S_ 32 0#32))))
    (addi (Host.remsi x (splat (safeDivisor k))) (splat (safeDivisor k)))
    (Host.remsi x (splat (safeDivisor k)))

/-- A negative coordinate wrapped once by the extent n. -/
def wrap (x : IVec S8x128x128x128 32) (n : BitVec 32) : IVec S8x128x128x128 32 :=
  select (cmpi .slt x (splat (constantI S_ 32 0#32))) (addi x (splat (constantI S_ 32 n))) x

/-- The row words: floor(m / 2^15), wrapped by 256. -/
def rowTab (M : IVec S8x128x128x128 32) : IVec S8x128x128x128 32 := wrap (floorDiv M (constantI S_ 32 32768#32)) 256#32

/-- The column words: floor(m / 2^7) mod 2^8, wrapped by 256. -/
def colTab (M : IVec S8x128x128x128 32) : IVec S8x128x128x128 32 :=
  wrap (remd (floorDiv M (constantI S_ 32 128#32)) (constantI S_ 32 256#32)) 256#32

/-- The batch numbers as a column [8,1,1,1], wrapped by 8. -/
def batchCol : IVec S8x1x1x1 32 :=
  select (cmpi .slt (broadcastInDim S8x1x1x1 ![0] bcast_S8_S8x1x1x1_0 (iotaInDim S8 32 0))
      (broadcastInDim S8x1x1x1 ![] bcast_S_S8x1x1x1 (constantI S_ 32 0#32)))
    (addi (broadcastInDim S8x1x1x1 ![0] bcast_S8_S8x1x1x1_0 (iotaInDim S8 32 0))
      (broadcastInDim S8x1x1x1 ![] bcast_S_S8x1x1x1 (constantI S_ 32 8#32)))
    (broadcastInDim S8x1x1x1 ![0] bcast_S8_S8x1x1x1_0 (iotaInDim S8 32 0))

/-- The channel numbers as a row [1,1,1,128], wrapped by 128. -/
def chanRow : IVec S1x1x1x128 32 :=
  select (cmpi .slt (broadcastInDim S1x1x1x128 ![3] bcast_S128_S1x1x1x128_3 (iotaInDim S128 32 0))
      (broadcastInDim S1x1x1x128 ![] bcast_S_S1x1x1x128 (constantI S_ 32 0#32)))
    (addi (broadcastInDim S1x1x1x128 ![3] bcast_S128_S1x1x1x128_3 (iotaInDim S128 32 0))
      (broadcastInDim S1x1x1x128 ![] bcast_S_S1x1x1x128 (constantI S_ 32 128#32)))
    (broadcastInDim S1x1x1x128 ![3] bcast_S128_S1x1x1x128_3 (iotaInDim S128 32 0))

/-- The batch words and the channel words over the pooled extents. -/
def batchTab : IVec S8x128x128x128 32 :=
  broadcastInDim S8x128x128x128 ![0, 1, 2, 3] bcast_S8x1x1x1_S8x128x128x128_0_1_2_3 batchCol
def chanTab : IVec S8x128x128x128 32 :=
  broadcastInDim S8x128x128x128 ![0, 1, 2, 3] bcast_S1x1x1x128_S8x128x128x128_0_1_2_3 chanRow

/-- A table over the pooled extents as a last column of length 1. -/
def col1 (x : IVec S8x128x128x128 32) : IVec S8x128x128x128x1 32 :=
  broadcastInDim S8x128x128x128x1 ![0, 1, 2, 3] bcast_S8x128x128x128_S8x128x128x128x1_0_1_2_3 x

/-- The table of four words (batch, row, column, channel) per input entry. -/
def table (M : IVec S8x128x128x128 32) : IVec S8x128x128x128x4 32 :=
  concatenate S8x128x128x128x4 4 [⟨S8x128x128x128x1, col1 batchTab⟩, ⟨S8x128x128x128x1, col1 (rowTab M)⟩,
    ⟨S8x128x128x128x1, col1 (colTab M)⟩, ⟨S8x128x128x128x1, col1 chanTab⟩]
    concatenates_S8x128x128x128x1_S8x128x128x128x1_S8x128x128x128x1_S8x128x128x128x1_S8x128x128x128x4_d4

/-- The reference's result: every update added into a zero array at the position its four words name. -/
def refOut (M : IVec S8x128x128x128 32) (U : FVec F S8x128x128x128 .f32) : FVec F S8x256x256x128 .f32 :=
  Host.scatterAdd scatter_S8x256x256x128_S8x128x128x128x4_S8x128x128x128_n_0123_0123_4
    (broadcastInDim S8x256x256x128 ![] bcast_S_S8x256x256x128 (constant S_ .f32 0x00000000#32)) (table M) U

end Cert.ReferenceIdeal.Hand

end
-- ==== Proof.RefRun.lean ====
/-
  The reference's run: every weakly fair execution of its host program ends with the result buffer at the pure term
  `refOut` of the two argument arrays, the arguments unchanged.

  The host program is a straight line of one hundred operations once its three calls (two floor divisions and one
  remainder, each ending in a select) are unfolded at their call sites. The line is cut into five consecutive
  stretches: the two floor divisions of the mask, the remainder of the second quotient, the wrapping and
  tabulating of the four coordinates, and last the concatenation and the scatter. What a stretch leaves in the one
  buffer a later stretch reads is a pure term of what it found in the buffers it reads itself, and it leaves every
  buffer it does not write as it found it; composing the five gives `refOut`.
-/
import proofs.«426952_j80908593922393_1_alg».proof.ReferenceIdeal
import proofs.«426952_j80908593922393_1_alg».proof.Proof.Gen.ReferenceIdeal
import proofs.«426952_j80908593922393_1_alg».proof.Proof.RefTerm
import Idealize.ShloMosaic.Lib.StableHlo.Run

noncomputable section

namespace Cert.ReferenceIdeal.Hand

open Idealize.ShloMosaic Idealize.ShloMosaic.TcCoe Idealize.SL.Sem Cert.ReferenceIdeal
open Idealize.ShloMosaic.StableHlo Cert.ReferenceIdeal.Facts₀

variable {F : FTy → Type} [FloatOps F]

/-! ## The line of operations -/

/-- The callers' operands as typed references: the mask argument, the second quotient, the three divisors. -/
abbrev tArg1 : TRef sig ⟨S8x128x128x128, .i32⟩ := .of main_arg1
abbrev tV1 : TRef sig ⟨S8x128x128x128, .i32⟩ := .of main_v1
abbrev tC : TRef sig ⟨S_, .i32⟩ := .of main_c
abbrev tC0 : TRef sig ⟨S_, .i32⟩ := .of main_c_0
abbrev tC1 : TRef sig ⟨S_, .i32⟩ := .of main_c_1

/-- @main's one hundred operations, in order, the calls unfolded: the divisor 32768 and the seventeen operations of the
    first floor division (into the record `main_call0`, its select into `main_v0`), the divisor 128 and the second's
    (into `main_call1`, `main_v1`), the divisor 256 and the twenty-one of the remainder of `main_v1` (into
    `main_call2`, its inner select into `main_call2_v2`, its last into `main_v2`), then @main's own forty-two. -/
abbrev ops : List (HloOp τ sig (Elt F)) :=
  [ nullary main_c (constantI S_ 32 32768#32),
    TRef.unary tC main_call0.v0 id,
    TRef.unary main_call0.v0 main_call0.v1 (broadcastInDim S8x128x128x128 ![] bcast_S_S8x128x128x128),
    TRef.binary tArg1 main_call0.v1 main_call0.v2 Host.divsi,
    TRef.unary tArg1 main_call0.v3 signi,
    TRef.unary main_call0.v0 main_call0.v4 signi,
    TRef.unary main_call0.v4 main_call0.v5 (broadcastInDim S8x128x128x128 ![] bcast_S_S8x128x128x128),
    TRef.binary main_call0.v3 main_call0.v5 main_call0.v6 (cmpi .ne),
    TRef.unary main_call0.v0 main_call0.v7 (broadcastInDim S8x128x128x128 ![] bcast_S_S8x128x128x128),
    TRef.binary tArg1 main_call0.v7 main_call0.v8 Host.remsi,
    TRef.nullary main_call0.c (constantI S_ 32 0#32),
    TRef.unary main_call0.c main_call0.v9 (broadcastInDim S8x128x128x128 ![] bcast_S_S8x128x128x128),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S8x128x128x128 ![] bcast_S_S8x128x128x128),
    TRef.binary main_call0.v2 main_call0.v12 main_call0.v13 subi,
    TRef.ternary main_call0.v11 main_call0.v13 main_call0.v2 main_call0.call0.v0 select,
    nullary main_c_0 (constantI S_ 32 128#32),
    TRef.unary tC0 main_call1.v0 id,
    TRef.unary main_call1.v0 main_call1.v1 (broadcastInDim S8x128x128x128 ![] bcast_S_S8x128x128x128),
    TRef.binary tArg1 main_call1.v1 main_call1.v2 Host.divsi,
    TRef.unary tArg1 main_call1.v3 signi,
    TRef.unary main_call1.v0 main_call1.v4 signi,
    TRef.unary main_call1.v4 main_call1.v5 (broadcastInDim S8x128x128x128 ![] bcast_S_S8x128x128x128),
    TRef.binary main_call1.v3 main_call1.v5 main_call1.v6 (cmpi .ne),
    TRef.unary main_call1.v0 main_call1.v7 (broadcastInDim S8x128x128x128 ![] bcast_S_S8x128x128x128),
    TRef.binary tArg1 main_call1.v7 main_call1.v8 Host.remsi,
    TRef.nullary main_call1.c (constantI S_ 32 0#32),
    TRef.unary main_call1.c main_call1.v9 (broadcastInDim S8x128x128x128 ![] bcast_S_S8x128x128x128),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S8x128x128x128 ![] bcast_S_S8x128x128x128),
    TRef.binary main_call1.v2 main_call1.v12 main_call1.v13 subi,
    TRef.ternary main_call1.v11 main_call1.v13 main_call1.v2 main_call1.call0.v0 select,
    nullary main_c_1 (constantI S_ 32 256#32),
    TRef.unary tC1 main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S8x128x128x128 ![] bcast_S_S8x128x128x128),
    TRef.binary tV1 main_call2.v3 main_call2.v4 Host.remsi,
    TRef.nullary main_call2.c_1 (constantI S_ 32 0#32),
    TRef.unary main_call2.c_1 main_call2.v5 (broadcastInDim S8x128x128x128 ![] bcast_S_S8x128x128x128),
    TRef.binary main_call2.v4 main_call2.v5 main_call2.v6 (cmpi .ne),
    TRef.nullary main_call2.c_2 (constantI S_ 32 0#32),
    TRef.unary main_call2.c_2 main_call2.v7 (broadcastInDim S8x128x128x128 ![] bcast_S_S8x128x128x128),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S8x128x128x128 ![] bcast_S_S8x128x128x128),
    TRef.binary main_call2.v8 main_call2.v10 main_call2.v11 (cmpi .ne),
    TRef.binary main_call2.v11 main_call2.v6 main_call2.v12 andi,
    TRef.unary main_call2.call0.v0 main_call2.v13 (broadcastInDim S8x128x128x128 ![] bcast_S_S8x128x128x128),
    TRef.binary main_call2.v4 main_call2.v13 main_call2.v14 addi,
    TRef.ternary main_call2.v12 main_call2.v14 main_call2.v4 main_call2.v15 select,
    nullary main_v3 (iotaInDim S128 32 0),
    unary main_v3 main_v4 (broadcastInDim S1x1x1x128 ![3] bcast_S128_S1x1x1x128_3 : (⟨S128, .i32⟩ : BufTy).Contents (Elt F) → (⟨S1x1x1x128, .i32⟩ : BufTy).Contents (Elt F)),
    nullary main_v5 (iotaInDim S8 32 0),
    unary main_v5 main_v6 (broadcastInDim S8x1x1x1 ![0] bcast_S8_S8x1x1x1_0 : (⟨S8, .i32⟩ : BufTy).Contents (Elt F) → (⟨S8x1x1x1, .i32⟩ : BufTy).Contents (Elt F)),
    nullary main_cst (constant S_ .f32 0x00000000#32),
    unary main_cst main_v7 (broadcastInDim S8x256x256x128 ![] bcast_S_S8x256x256x128 : (⟨S_, .f32⟩ : BufTy).Contents (Elt F) → (⟨S8x256x256x128, .f32⟩ : BufTy).Contents (Elt F)),
    nullary main_c_2 (constantI S_ 32 0#32),
    unary main_c_2 main_v8 (broadcastInDim S8x1x1x1 ![] bcast_S_S8x1x1x1 : (⟨S_, .i32⟩ : BufTy).Contents (Elt F) → (⟨S8x1x1x1, .i32⟩ : BufTy).Contents (Elt F)),
    binary main_v6 main_v8 main_v9 (cmpi .slt : (⟨S8x1x1x1, .i32⟩ : BufTy).Contents (Elt F) → (⟨S8x1x1x1, .i32⟩ : BufTy).Contents (Elt F) → (⟨S8x1x1x1, .i1⟩ : BufTy).Contents (Elt F)),
    nullary main_c_3 (constantI S_ 32 8#32),
    unary main_c_3 main_v10 (broadcastInDim S8x1x1x1 ![] bcast_S_S8x1x1x1 : (⟨S_, .i32⟩ : BufTy).Contents (Elt F) → (⟨S8x1x1x1, .i32⟩ : BufTy).Contents (Elt F)),
    binary main_v6 main_v10 main_v11 (addi : (⟨S8x1x1x1, .i32⟩ : BufTy).Contents (Elt F) → (⟨S8x1x1x1, .i32⟩ : BufTy).Contents (Elt F) → (⟨S8x1x1x1, .i32⟩ : BufTy).Contents (Elt F)),
    ternary main_v9 main_v11 main_v6 main_v12 (select : (⟨S8x1x1x1, .i1⟩ : BufTy).Contents (Elt F) → (⟨S8x1x1x1, .i32⟩ : BufTy).Contents (Elt F) → (⟨S8x1x1x1, .i32⟩ : BufTy).Contents (Elt F) → (⟨S8x1x1x1, .i32⟩ : BufTy).Contents (Elt F)),
    nullary main_c_4 (constantI S_ 32 0#32),
    unary main_c_4 main_v13 (broadcastInDim S8x128x128x128 ![] bcast_S_S8x128x128x128 : (⟨S_, .i32⟩ : BufTy).Contents (Elt F) → (⟨S8x128x128x128, .i32⟩ : BufTy).Contents (Elt F)),
    binary main_v0 main_v13 main_v14 (cmpi .slt : (⟨S8x128x128x128, .i32⟩ : BufTy).Contents (Elt F) → (⟨S8x128x128x128, .i32⟩ : BufTy).Contents (Elt F) → (⟨S8x128x128x128, .i1⟩ : BufTy).Contents (Elt F)),
    nullary main_c_5 (constantI S_ 32 256#32),
    unary main_c_5 main_v15 (broadcastInDim S8x128x128x128 ![] bcast_S_S8x128x128x128 : (⟨S_, .i32⟩ : BufTy).Contents (Elt F) → (⟨S8x128x128x128, .i32⟩ : BufTy).Contents (Elt F)),
    binary main_v0 main_v15 main_v16 (addi : (⟨S8x128x128x128, .i32⟩ : BufTy).Contents (Elt F) → (⟨S8x128x128x128, .i32⟩ : BufTy).Contents (Elt F) → (⟨S8x128x128x128, .i32⟩ : BufTy).Contents (Elt F)),
    ternary main_v14 main_v16 main_v0 main_v17 (select : (⟨S8x128x128x128, .i1⟩ : BufTy).Contents (Elt F) → (⟨S8x128x128x128, .i32⟩ : BufTy).Contents (Elt F) → (⟨S8x128x128x128, .i32⟩ : BufTy).Contents (Elt F) → (⟨S8x128x128x128, .i32⟩ : BufTy).Contents (Elt F)),
    nullary main_c_6 (constantI S_ 32 0#32),
    unary main_c_6 main_v18 (broadcastInDim S8x128x128x128 ![] bcast_S_S8x128x128x128 : (⟨S_, .i32⟩ : BufTy).Contents (Elt F) → (⟨S8x128x128x128, .i32⟩ : BufTy).Contents (Elt F)),
    binary main_v2 main_v18 main_v19 (cmpi .slt : (⟨S8x128x128x128, .i32⟩ : BufTy).Contents (Elt F) → (⟨S8x128x128x128, .i32⟩ : BufTy).Contents (Elt F) → (⟨S8x128x128x128, .i1⟩ : BufTy).Contents (Elt F)),
    nullary main_c_7 (constantI S_ 32 256#32),
    unary main_c_7 main_v20 (broadcastInDim S8x128x128x128 ![] bcast_S_S8x128x128x128 : (⟨S_, .i32⟩ : BufTy).Contents (Elt F) → (⟨S8x128x128x128, .i32⟩ : BufTy).Contents (Elt F)),
    binary main_v2 main_v20 main_v21 (addi : (⟨S8x128x128x128, .i32⟩ : BufTy).Contents (Elt F) → (⟨S8x128x128x128, .i32⟩ : BufTy).Contents (Elt F) → (⟨S8x128x128x128, .i32⟩ : BufTy).Contents (Elt F)),
    ternary main_v19 main_v21 main_v2 main_v22 (select : (⟨S8x128x128x128, .i1⟩ : BufTy).Contents (Elt F) → (⟨S8x128x128x128, .i32⟩ : BufTy).Contents (Elt F) → (⟨S8x128x128x128, .i32⟩ : BufTy).Contents (Elt F) → (⟨S8x128x128x128, .i32⟩ : BufTy).Contents (Elt F)),
    nullary main_c_8 (constantI S_ 32 0#32),
    unary main_c_8 main_v23 (broadcastInDim S1x1x1x128 ![] bcast_S_S1x1x1x128 : (⟨S_, .i32⟩ : BufTy).Contents (Elt F) → (⟨S1x1x1x128, .i32⟩ : BufTy).Contents (Elt F)),
    binary main_v4 main_v23 main_v24 (cmpi .slt : (⟨S1x1x1x128, .i32⟩ : BufTy).Contents (Elt F) → (⟨S1x1x1x128, .i32⟩ : BufTy).Contents (Elt F) → (⟨S1x1x1x128, .i1⟩ : BufTy).Contents (Elt F)),
    nullary main_c_9 (constantI S_ 32 128#32),
    unary main_c_9 main_v25 (broadcastInDim S1x1x1x128 ![] bcast_S_S1x1x1x128 : (⟨S_, .i32⟩ : BufTy).Contents (Elt F) → (⟨S1x1x1x128, .i32⟩ : BufTy).Contents (Elt F)),
    binary main_v4 main_v25 main_v26 (addi : (⟨S1x1x1x128, .i32⟩ : BufTy).Contents (Elt F) → (⟨S1x1x1x128, .i32⟩ : BufTy).Contents (Elt F) → (⟨S1x1x1x128, .i32⟩ : BufTy).Contents (Elt F)),
    ternary main_v24 main_v26 main_v4 main_v27 (select : (⟨S1x1x1x128, .i1⟩ : BufTy).Contents (Elt F) → (⟨S1x1x1x128, .i32⟩ : BufTy).Contents (Elt F) → (⟨S1x1x1x128, .i32⟩ : BufTy).Contents (Elt F) → (⟨S1x1x1x128, .i32⟩ : BufTy).Contents (Elt F)),
    unary main_v12 main_v28 (broadcastInDim S8x128x128x128 ![0, 1, 2, 3] bcast_S8x1x1x1_S8x128x128x128_0_1_2_3 : (⟨S8x1x1x1, .i32⟩ : BufTy).Contents (Elt F) → (⟨S8x128x128x128, .i32⟩ : BufTy).Contents (Elt F)),
    unary main_v27 main_v29 (broadcastInDim S8x128x128x128 ![0, 1, 2, 3] bcast_S1x1x1x128_S8x128x128x128_0_1_2_3 : (⟨S1x1x1x128, .i32⟩ : BufTy).Contents (Elt F) → (⟨S8x128x128x128, .i32⟩ : BufTy).Contents (Elt F)),
    unary main_v28 main_v30 (broadcastInDim S8x128x128x128x1 ![0, 1, 2, 3] bcast_S8x128x128x128_S8x128x128x128x1_0_1_2_3 : (⟨S8x128x128x128, .i32⟩ : BufTy).Contents (Elt F) → (⟨S8x128x128x128x1, .i32⟩ : BufTy).Contents (Elt F)),
    unary main_v17 main_v31 (broadcastInDim S8x128x128x128x1 ![0, 1, 2, 3] bcast_S8x128x128x128_S8x128x128x128x1_0_1_2_3 : (⟨S8x128x128x128, .i32⟩ : BufTy).Contents (Elt F) → (⟨S8x128x128x128x1, .i32⟩ : BufTy).Contents (Elt F)),
    unary main_v22 main_v32 (broadcastInDim S8x128x128x128x1 ![0, 1, 2, 3] bcast_S8x128x128x128_S8x128x128x128x1_0_1_2_3 : (⟨S8x128x128x128, .i32⟩ : BufTy).Contents (Elt F) → (⟨S8x128x128x128x1, .i32⟩ : BufTy).Contents (Elt F)),
    unary main_v29 main_v33 (broadcastInDim S8x128x128x128x1 ![0, 1, 2, 3] bcast_S8x128x128x128_S8x128x128x128x1_0_1_2_3 : (⟨S8x128x128x128, .i32⟩ : BufTy).Contents (Elt F) → (⟨S8x128x128x128x1, .i32⟩ : BufTy).Contents (Elt F)),
    nary ![main_v30, main_v31, main_v32, main_v33] main_v34 (fun u => concatenate S8x128x128x128x4 4 [⟨S8x128x128x128x1, u 0⟩, ⟨S8x128x128x128x1, u 1⟩, ⟨S8x128x128x128x1, u 2⟩, ⟨S8x128x128x128x1, u 3⟩] concatenates_S8x128x128x128x1_S8x128x128x128x1_S8x128x128x128x1_S8x128x128x128x1_S8x128x128x128x4_d4),
    ternary main_v7 main_v34 main_arg0 main_v35 ((fun x i u => Host.scatterAdd scatter_S8x256x256x128_S8x128x128x128x4_S8x128x128x128_n_0123_0123_4 x i u) : (⟨S8x256x256x128, .f32⟩ : BufTy).Contents (Elt F) → (⟨S8x128x128x128x4, .i32⟩ : BufTy).Contents (Elt F) → (⟨S8x128x128x128, .f32⟩ : BufTy).Contents (Elt F) → (⟨S8x256x256x128, .f32⟩ : BufTy).Contents (Elt F)) ]

set_option maxRecDepth 8192 in
set_option maxHeartbeats 4000000 in
/-- @main is that line: the callees' bodies unfolded at their calls, sequencing reassociated, both by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., unary_bufs_sub .., nullary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., unary_bufs_sub ..,
    unary_bufs_sub .., unary_bufs_sub .., nary_bufs_sub .., ternary_bufs_sub ..⟩

/-! ## The five stretches -/

/-- The first floor division: the divisor 32768, then the quotient of `main_arg1` by it into `main_v0`. -/
abbrev opsA : List (HloOp τ sig (Elt F)) :=
  [ nullary main_c (constantI S_ 32 32768#32),
    TRef.unary tC main_call0.v0 id,
    TRef.unary main_call0.v0 main_call0.v1 (broadcastInDim S8x128x128x128 ![] bcast_S_S8x128x128x128),
    TRef.binary tArg1 main_call0.v1 main_call0.v2 Host.divsi,
    TRef.unary tArg1 main_call0.v3 signi,
    TRef.unary main_call0.v0 main_call0.v4 signi,
    TRef.unary main_call0.v4 main_call0.v5 (broadcastInDim S8x128x128x128 ![] bcast_S_S8x128x128x128),
    TRef.binary main_call0.v3 main_call0.v5 main_call0.v6 (cmpi .ne),
    TRef.unary main_call0.v0 main_call0.v7 (broadcastInDim S8x128x128x128 ![] bcast_S_S8x128x128x128),
    TRef.binary tArg1 main_call0.v7 main_call0.v8 Host.remsi,
    TRef.nullary main_call0.c (constantI S_ 32 0#32),
    TRef.unary main_call0.c main_call0.v9 (broadcastInDim S8x128x128x128 ![] bcast_S_S8x128x128x128),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S8x128x128x128 ![] bcast_S_S8x128x128x128),
    TRef.binary main_call0.v2 main_call0.v12 main_call0.v13 subi,
    TRef.ternary main_call0.v11 main_call0.v13 main_call0.v2 main_call0.call0.v0 select ]

/-- The second floor division: the divisor 128, then the quotient of `main_arg1` by it into `main_v1`. -/
abbrev opsB : List (HloOp τ sig (Elt F)) :=
  [ nullary main_c_0 (constantI S_ 32 128#32),
    TRef.unary tC0 main_call1.v0 id,
    TRef.unary main_call1.v0 main_call1.v1 (broadcastInDim S8x128x128x128 ![] bcast_S_S8x128x128x128),
    TRef.binary tArg1 main_call1.v1 main_call1.v2 Host.divsi,
    TRef.unary tArg1 main_call1.v3 signi,
    TRef.unary main_call1.v0 main_call1.v4 signi,
    TRef.unary main_call1.v4 main_call1.v5 (broadcastInDim S8x128x128x128 ![] bcast_S_S8x128x128x128),
    TRef.binary main_call1.v3 main_call1.v5 main_call1.v6 (cmpi .ne),
    TRef.unary main_call1.v0 main_call1.v7 (broadcastInDim S8x128x128x128 ![] bcast_S_S8x128x128x128),
    TRef.binary tArg1 main_call1.v7 main_call1.v8 Host.remsi,
    TRef.nullary main_call1.c (constantI S_ 32 0#32),
    TRef.unary main_call1.c main_call1.v9 (broadcastInDim S8x128x128x128 ![] bcast_S_S8x128x128x128),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S8x128x128x128 ![] bcast_S_S8x128x128x128),
    TRef.binary main_call1.v2 main_call1.v12 main_call1.v13 subi,
    TRef.ternary main_call1.v11 main_call1.v13 main_call1.v2 main_call1.call0.v0 select ]

/-- The remainder: the divisor 256, then the remainder of `main_v1` by it into `main_v2`. -/
abbrev opsC : List (HloOp τ sig (Elt F)) :=
  [ nullary main_c_1 (constantI S_ 32 256#32),
    TRef.unary tC1 main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S8x128x128x128 ![] bcast_S_S8x128x128x128),
    TRef.binary tV1 main_call2.v3 main_call2.v4 Host.remsi,
    TRef.nullary main_call2.c_1 (constantI S_ 32 0#32),
    TRef.unary main_call2.c_1 main_call2.v5 (broadcastInDim S8x128x128x128 ![] bcast_S_S8x128x128x128),
    TRef.binary main_call2.v4 main_call2.v5 main_call2.v6 (cmpi .ne),
    TRef.nullary main_call2.c_2 (constantI S_ 32 0#32),
    TRef.unary main_call2.c_2 main_call2.v7 (broadcastInDim S8x128x128x128 ![] bcast_S_S8x128x128x128),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S8x128x128x128 ![] bcast_S_S8x128x128x128),
    TRef.binary main_call2.v8 main_call2.v10 main_call2.v11 (cmpi .ne),
    TRef.binary main_call2.v11 main_call2.v6 main_call2.v12 andi,
    TRef.unary main_call2.call0.v0 main_call2.v13 (broadcastInDim S8x128x128x128 ![] bcast_S_S8x128x128x128),
    TRef.binary main_call2.v4 main_call2.v13 main_call2.v14 addi,
    TRef.ternary main_call2.v12 main_call2.v14 main_call2.v4 main_call2.v15 select ]

/-- The four coordinates wrapped and tabulated: the batch and channel numbers from their iotas, the row from `main_v0`,
    the column from `main_v2`, each as a last column of length one (`main_v30` … `main_v33`); and the zero array `main_v7`. -/
abbrev opsD1 : List (HloOp τ sig (Elt F)) :=
  [ nullary main_v3 (iotaInDim S128 32 0),
    unary main_v3 main_v4 (broadcastInDim S1x1x1x128 ![3] bcast_S128_S1x1x1x128_3 : (⟨S128, .i32⟩ : BufTy).Contents (Elt F) → (⟨S1x1x1x128, .i32⟩ : BufTy).Contents (Elt F)),
    nullary main_v5 (iotaInDim S8 32 0),
    unary main_v5 main_v6 (broadcastInDim S8x1x1x1 ![0] bcast_S8_S8x1x1x1_0 : (⟨S8, .i32⟩ : BufTy).Contents (Elt F) → (⟨S8x1x1x1, .i32⟩ : BufTy).Contents (Elt F)),
    nullary main_cst (constant S_ .f32 0x00000000#32),
    unary main_cst main_v7 (broadcastInDim S8x256x256x128 ![] bcast_S_S8x256x256x128 : (⟨S_, .f32⟩ : BufTy).Contents (Elt F) → (⟨S8x256x256x128, .f32⟩ : BufTy).Contents (Elt F)),
    nullary main_c_2 (constantI S_ 32 0#32),
    unary main_c_2 main_v8 (broadcastInDim S8x1x1x1 ![] bcast_S_S8x1x1x1 : (⟨S_, .i32⟩ : BufTy).Contents (Elt F) → (⟨S8x1x1x1, .i32⟩ : BufTy).Contents (Elt F)),
    binary main_v6 main_v8 main_v9 (cmpi .slt : (⟨S8x1x1x1, .i32⟩ : BufTy).Contents (Elt F) → (⟨S8x1x1x1, .i32⟩ : BufTy).Contents (Elt F) → (⟨S8x1x1x1, .i1⟩ : BufTy).Contents (Elt F)),
    nullary main_c_3 (constantI S_ 32 8#32),
    unary main_c_3 main_v10 (broadcastInDim S8x1x1x1 ![] bcast_S_S8x1x1x1 : (⟨S_, .i32⟩ : BufTy).Contents (Elt F) → (⟨S8x1x1x1, .i32⟩ : BufTy).Contents (Elt F)),
    binary main_v6 main_v10 main_v11 (addi : (⟨S8x1x1x1, .i32⟩ : BufTy).Contents (Elt F) → (⟨S8x1x1x1, .i32⟩ : BufTy).Contents (Elt F) → (⟨S8x1x1x1, .i32⟩ : BufTy).Contents (Elt F)),
    ternary main_v9 main_v11 main_v6 main_v12 (select : (⟨S8x1x1x1, .i1⟩ : BufTy).Contents (Elt F) → (⟨S8x1x1x1, .i32⟩ : BufTy).Contents (Elt F) → (⟨S8x1x1x1, .i32⟩ : BufTy).Contents (Elt F) → (⟨S8x1x1x1, .i32⟩ : BufTy).Contents (Elt F)),
    nullary main_c_4 (constantI S_ 32 0#32),
    unary main_c_4 main_v13 (broadcastInDim S8x128x128x128 ![] bcast_S_S8x128x128x128 : (⟨S_, .i32⟩ : BufTy).Contents (Elt F) → (⟨S8x128x128x128, .i32⟩ : BufTy).Contents (Elt F)),
    binary main_v0 main_v13 main_v14 (cmpi .slt : (⟨S8x128x128x128, .i32⟩ : BufTy).Contents (Elt F) → (⟨S8x128x128x128, .i32⟩ : BufTy).Contents (Elt F) → (⟨S8x128x128x128, .i1⟩ : BufTy).Contents (Elt F)),
    nullary main_c_5 (constantI S_ 32 256#32),
    unary main_c_5 main_v15 (broadcastInDim S8x128x128x128 ![] bcast_S_S8x128x128x128 : (⟨S_, .i32⟩ : BufTy).Contents (Elt F) → (⟨S8x128x128x128, .i32⟩ : BufTy).Contents (Elt F)),
    binary main_v0 main_v15 main_v16 (addi : (⟨S8x128x128x128, .i32⟩ : BufTy).Contents (Elt F) → (⟨S8x128x128x128, .i32⟩ : BufTy).Contents (Elt F) → (⟨S8x128x128x128, .i32⟩ : BufTy).Contents (Elt F)),
    ternary main_v14 main_v16 main_v0 main_v17 (select : (⟨S8x128x128x128, .i1⟩ : BufTy).Contents (Elt F) → (⟨S8x128x128x128, .i32⟩ : BufTy).Contents (Elt F) → (⟨S8x128x128x128, .i32⟩ : BufTy).Contents (Elt F) → (⟨S8x128x128x128, .i32⟩ : BufTy).Contents (Elt F)),
    nullary main_c_6 (constantI S_ 32 0#32),
    unary main_c_6 main_v18 (broadcastInDim S8x128x128x128 ![] bcast_S_S8x128x128x128 : (⟨S_, .i32⟩ : BufTy).Contents (Elt F) → (⟨S8x128x128x128, .i32⟩ : BufTy).Contents (Elt F)),
    binary main_v2 main_v18 main_v19 (cmpi .slt : (⟨S8x128x128x128, .i32⟩ : BufTy).Contents (Elt F) → (⟨S8x128x128x128, .i32⟩ : BufTy).Contents (Elt F) → (⟨S8x128x128x128, .i1⟩ : BufTy).Contents (Elt F)),
    nullary main_c_7 (constantI S_ 32 256#32),
    unary main_c_7 main_v20 (broadcastInDim S8x128x128x128 ![] bcast_S_S8x128x128x128 : (⟨S_, .i32⟩ : BufTy).Contents (Elt F) → (⟨S8x128x128x128, .i32⟩ : BufTy).Contents (Elt F)),
    binary main_v2 main_v20 main_v21 (addi : (⟨S8x128x128x128, .i32⟩ : BufTy).Contents (Elt F) → (⟨S8x128x128x128, .i32⟩ : BufTy).Contents (Elt F) → (⟨S8x128x128x128, .i32⟩ : BufTy).Contents (Elt F)),
    ternary main_v19 main_v21 main_v2 main_v22 (select : (⟨S8x128x128x128, .i1⟩ : BufTy).Contents (Elt F) → (⟨S8x128x128x128, .i32⟩ : BufTy).Contents (Elt F) → (⟨S8x128x128x128, .i32⟩ : BufTy).Contents (Elt F) → (⟨S8x128x128x128, .i32⟩ : BufTy).Contents (Elt F)),
    nullary main_c_8 (constantI S_ 32 0#32),
    unary main_c_8 main_v23 (broadcastInDim S1x1x1x128 ![] bcast_S_S1x1x1x128 : (⟨S_, .i32⟩ : BufTy).Contents (Elt F) → (⟨S1x1x1x128, .i32⟩ : BufTy).Contents (Elt F)),
    binary main_v4 main_v23 main_v24 (cmpi .slt : (⟨S1x1x1x128, .i32⟩ : BufTy).Contents (Elt F) → (⟨S1x1x1x128, .i32⟩ : BufTy).Contents (Elt F) → (⟨S1x1x1x128, .i1⟩ : BufTy).Contents (Elt F)),
    nullary main_c_9 (constantI S_ 32 128#32),
    unary main_c_9 main_v25 (broadcastInDim S1x1x1x128 ![] bcast_S_S1x1x1x128 : (⟨S_, .i32⟩ : BufTy).Contents (Elt F) → (⟨S1x1x1x128, .i32⟩ : BufTy).Contents (Elt F)),
    binary main_v4 main_v25 main_v26 (addi : (⟨S1x1x1x128, .i32⟩ : BufTy).Contents (Elt F) → (⟨S1x1x1x128, .i32⟩ : BufTy).Contents (Elt F) → (⟨S1x1x1x128, .i32⟩ : BufTy).Contents (Elt F)),
    ternary main_v24 main_v26 main_v4 main_v27 (select : (⟨S1x1x1x128, .i1⟩ : BufTy).Contents (Elt F) → (⟨S1x1x1x128, .i32⟩ : BufTy).Contents (Elt F) → (⟨S1x1x1x128, .i32⟩ : BufTy).Contents (Elt F) → (⟨S1x1x1x128, .i32⟩ : BufTy).Contents (Elt F)),
    unary main_v12 main_v28 (broadcastInDim S8x128x128x128 ![0, 1, 2, 3] bcast_S8x1x1x1_S8x128x128x128_0_1_2_3 : (⟨S8x1x1x1, .i32⟩ : BufTy).Contents (Elt F) → (⟨S8x128x128x128, .i32⟩ : BufTy).Contents (Elt F)),
    unary main_v27 main_v29 (broadcastInDim S8x128x128x128 ![0, 1, 2, 3] bcast_S1x1x1x128_S8x128x128x128_0_1_2_3 : (⟨S1x1x1x128, .i32⟩ : BufTy).Contents (Elt F) → (⟨S8x128x128x128, .i32⟩ : BufTy).Contents (Elt F)),
    unary main_v28 main_v30 (broadcastInDim S8x128x128x128x1 ![0, 1, 2, 3] bcast_S8x128x128x128_S8x128x128x128x1_0_1_2_3 : (⟨S8x128x128x128, .i32⟩ : BufTy).Contents (Elt F) → (⟨S8x128x128x128x1, .i32⟩ : BufTy).Contents (Elt F)),
    unary main_v17 main_v31 (broadcastInDim S8x128x128x128x1 ![0, 1, 2, 3] bcast_S8x128x128x128_S8x128x128x128x1_0_1_2_3 : (⟨S8x128x128x128, .i32⟩ : BufTy).Contents (Elt F) → (⟨S8x128x128x128x1, .i32⟩ : BufTy).Contents (Elt F)),
    unary main_v22 main_v32 (broadcastInDim S8x128x128x128x1 ![0, 1, 2, 3] bcast_S8x128x128x128_S8x128x128x128x1_0_1_2_3 : (⟨S8x128x128x128, .i32⟩ : BufTy).Contents (Elt F) → (⟨S8x128x128x128x1, .i32⟩ : BufTy).Contents (Elt F)),
    unary main_v29 main_v33 (broadcastInDim S8x128x128x128x1 ![0, 1, 2, 3] bcast_S8x128x128x128_S8x128x128x128x1_0_1_2_3 : (⟨S8x128x128x128, .i32⟩ : BufTy).Contents (Elt F) → (⟨S8x128x128x128x1, .i32⟩ : BufTy).Contents (Elt F)) ]

/-- The concatenation of the four columns and the scatter of `main_arg0` at them into the zero array. -/
abbrev opsD2 : List (HloOp τ sig (Elt F)) :=
  [ nary ![main_v30, main_v31, main_v32, main_v33] main_v34 (fun u => concatenate S8x128x128x128x4 4 [⟨S8x128x128x128x1, u 0⟩, ⟨S8x128x128x128x1, u 1⟩, ⟨S8x128x128x128x1, u 2⟩, ⟨S8x128x128x128x1, u 3⟩] concatenates_S8x128x128x128x1_S8x128x128x128x1_S8x128x128x128x1_S8x128x128x128x1_S8x128x128x128x4_d4),
    ternary main_v7 main_v34 main_arg0 main_v35 ((fun x i u => Host.scatterAdd scatter_S8x256x256x128_S8x128x128x128x4_S8x128x128x128_n_0123_0123_4 x i u) : (⟨S8x256x256x128, .f32⟩ : BufTy).Contents (Elt F) → (⟨S8x128x128x128x4, .i32⟩ : BufTy).Contents (Elt F) → (⟨S8x128x128x128, .f32⟩ : BufTy).Contents (Elt F) → (⟨S8x256x256x128, .f32⟩ : BufTy).Contents (Elt F)) ]

/-- The line is the five stretches in a row. -/
theorem ops_split : (ops : List (HloOp τ sig (Elt F))) = opsA ++ (opsB ++ (opsC ++ (opsD1 ++ opsD2))) := rfl

/-- The contents after two lines in a row are the second's after the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ### What each stretch computes -/

set_option maxRecDepth 8192 in
/-- After the first stretch `main_v0` holds the floor quotient by 32768 of what `main_arg1` held. -/
theorem opsA_v0 (V : Valuation τ sig (Elt F)) :
    after opsA V (main_v0 : DevRef τ sig) = floorDiv (V (main_arg1 : DevRef τ sig)) (constantI S_ 32 32768#32) := by
  after_results_simp <;> rfl

set_option maxRecDepth 8192 in
/-- After the second stretch `main_v1` holds the floor quotient by 128 of what `main_arg1` held. -/
theorem opsB_v1 (V : Valuation τ sig (Elt F)) :
    after opsB V (main_v1 : DevRef τ sig) = floorDiv (V (main_arg1 : DevRef τ sig)) (constantI S_ 32 128#32) := by
  after_results_simp <;> rfl

set_option maxRecDepth 8192 in
/-- After the third stretch `main_v2` holds the remainder by 256 of what `main_v1` held. -/
theorem opsC_v2 (V : Valuation τ sig (Elt F)) :
    after opsC V (main_v2 : DevRef τ sig) = remd (V (main_v1 : DevRef τ sig)) (constantI S_ 32 256#32) := by
  after_results_simp <;> rfl

set_option maxRecDepth 8192 in
/-- After the fourth stretch `main_v7` holds the zero array. -/
theorem opsD1_v7 (V : Valuation τ sig (Elt F)) :
    after opsD1 V (main_v7 : DevRef τ sig) = broadcastInDim S8x256x256x128 ![] bcast_S_S8x256x256x128 (constant S_ .f32 0x00000000#32) := by
  after_results_simp <;> rfl

set_option maxRecDepth 8192 in
/-- After the fourth stretch `main_v30` holds the batch column. -/
theorem opsD1_v30 (V : Valuation τ sig (Elt F)) :
    after opsD1 V (main_v30 : DevRef τ sig) = col1 batchTab := by
  after_results_simp <;> rfl

set_option maxRecDepth 8192 in
/-- After the fourth stretch `main_v31` holds what `main_v0` held, wrapped by 256, as a column. -/
theorem opsD1_v31 (V : Valuation τ sig (Elt F)) :
    after opsD1 V (main_v31 : DevRef τ sig) = col1 (wrap (V (main_v0 : DevRef τ sig)) 256#32) := by
  after_results_simp <;> rfl

set_option maxRecDepth 8192 in
/-- After the fourth stretch `main_v32` holds what `main_v2` held, wrapped by 256, as a column. -/
theorem opsD1_v32 (V : Valuation τ sig (Elt F)) :
    after opsD1 V (main_v32 : DevRef τ sig) = col1 (wrap (V (main_v2 : DevRef τ sig)) 256#32) := by
  after_results_simp <;> rfl

set_option maxRecDepth 8192 in
/-- After the fourth stretch `main_v33` holds the channel column. -/
theorem opsD1_v33 (V : Valuation τ sig (Elt F)) :
    after opsD1 V (main_v33 : DevRef τ sig) = col1 chanTab := by
  after_results_simp <;> rfl

set_option maxRecDepth 8192 in
/-- After the last stretch `main_v35` holds the scatter-add of what `main_arg0` held into what `main_v7` held, at the table of the four columns. -/
theorem opsD2_v35 (V : Valuation τ sig (Elt F)) :
    after opsD2 V (main_v35 : DevRef τ sig) = Host.scatterAdd scatter_S8x256x256x128_S8x128x128x128x4_S8x128x128x128_n_0123_0123_4 (V (main_v7 : DevRef τ sig))
        (concatenate S8x128x128x128x4 4 [⟨S8x128x128x128x1, V (main_v30 : DevRef τ sig)⟩, ⟨S8x128x128x128x1, V (main_v31 : DevRef τ sig)⟩,
          ⟨S8x128x128x128x1, V (main_v32 : DevRef τ sig)⟩, ⟨S8x128x128x128x1, V (main_v33 : DevRef τ sig)⟩] concatenates_S8x128x128x128x1_S8x128x128x128x1_S8x128x128x128x1_S8x128x128x128x1_S8x128x128x128x4_d4)
        (V (main_arg0 : DevRef τ sig)) := rfl

/-! ### What each stretch leaves alone: the arguments, and a buffer a later stretch reads -/

theorem opsA_keeps_arg0 (V : Valuation τ sig (Elt F)) :
    after opsA V (main_arg0 : DevRef τ sig) = V (main_arg0 : DevRef τ sig) := by
  after_results_simp

theorem opsA_keeps_arg1 (V : Valuation τ sig (Elt F)) :
    after opsA V (main_arg1 : DevRef τ sig) = V (main_arg1 : DevRef τ sig) := by
  after_results_simp

theorem opsB_keeps_arg0 (V : Valuation τ sig (Elt F)) :
    after opsB V (main_arg0 : DevRef τ sig) = V (main_arg0 : DevRef τ sig) := by
  after_results_simp

theorem opsB_keeps_arg1 (V : Valuation τ sig (Elt F)) :
    after opsB V (main_arg1 : DevRef τ sig) = V (main_arg1 : DevRef τ sig) := by
  after_results_simp

theorem opsB_keeps_v0 (V : Valuation τ sig (Elt F)) :
    after opsB V (main_v0 : DevRef τ sig) = V (main_v0 : DevRef τ sig) := by
  after_results_simp

theorem opsC_keeps_arg0 (V : Valuation τ sig (Elt F)) :
    after opsC V (main_arg0 : DevRef τ sig) = V (main_arg0 : DevRef τ sig) := by
  after_results_simp

theorem opsC_keeps_arg1 (V : Valuation τ sig (Elt F)) :
    after opsC V (main_arg1 : DevRef τ sig) = V (main_arg1 : DevRef τ sig) := by
  after_results_simp

theorem opsC_keeps_v0 (V : Valuation τ sig (Elt F)) :
    after opsC V (main_v0 : DevRef τ sig) = V (main_v0 : DevRef τ sig) := by
  after_results_simp

theorem opsD1_keeps_arg0 (V : Valuation τ sig (Elt F)) :
    after opsD1 V (main_arg0 : DevRef τ sig) = V (main_arg0 : DevRef τ sig) := by
  after_results_simp

theorem opsD1_keeps_arg1 (V : Valuation τ sig (Elt F)) :
    after opsD1 V (main_arg1 : DevRef τ sig) = V (main_arg1 : DevRef τ sig) := by
  after_results_simp

theorem opsD2_keeps_arg0 (V : Valuation τ sig (Elt F)) :
    after opsD2 V (main_arg0 : DevRef τ sig) = V (main_arg0 : DevRef τ sig) := rfl

theorem opsD2_keeps_arg1 (V : Valuation τ sig (Elt F)) :
    after opsD2 V (main_arg1 : DevRef τ sig) = V (main_arg1 : DevRef τ sig) := rfl

/-! ## The whole line -/

/-- After the line the result buffer holds `refOut` of what the two arguments held. -/
theorem out_eq (V : Valuation τ sig (Elt F)) :
    after ops V (main_v35 : DevRef τ sig) = refOut (V (main_arg1 : DevRef τ sig)) (V (main_arg0 : DevRef τ sig)) := by
  rw [ops_split, after_app, after_app, after_app, after_app, opsD2_v35, opsD1_v7, opsD1_v30, opsD1_v31, opsD1_v32, opsD1_v33,
    opsD1_keeps_arg0, opsC_keeps_v0, opsC_v2, opsC_keeps_arg0, opsB_keeps_v0, opsB_v1, opsB_keeps_arg0, opsA_v0,
    opsA_keeps_arg1, opsA_keeps_arg0]
  rfl

/-- The line writes neither argument. -/
theorem arg0_eq (V : Valuation τ sig (Elt F)) : after ops V (main_arg0 : DevRef τ sig) = V (main_arg0 : DevRef τ sig) := by
  rw [ops_split, after_app, after_app, after_app, after_app, opsD2_keeps_arg0, opsD1_keeps_arg0, opsC_keeps_arg0,
    opsB_keeps_arg0, opsA_keeps_arg0]
theorem arg1_eq (V : Valuation τ sig (Elt F)) : after ops V (main_arg1 : DevRef τ sig) = V (main_arg1 : DevRef τ sig) := by
  rw [ops_split, after_app, after_app, after_app, after_app, opsD2_keeps_arg1, opsD1_keeps_arg1, opsC_keeps_arg1,
    opsB_keeps_arg1, opsA_keeps_arg1]

/-! ## The run -/

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c : Thread nD τ).loc main_v35)
          = refOut (F := F) (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c main_v35).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.Hand

end
-- ==== Proof.PreDecode.lean ====
/-
  What the precondition says of one mask word: the printed predicate is all ones only if, at every input entry
  (b, h, w, c), the word's arithmetic shift by 16 is h and its arithmetic shift by 8, masked to seven bits, is w.

  The predicate is the conjunction of two one-bit words, each an `and`-reduction over all four axes. The second
  reduces the entrywise conjunction of two word equalities: the mask shifted right by 16 against the position along
  axis 1, and the mask shifted right by 8 then masked with 127 against the position along axis 2. A conjunction of
  bits is 1 only if both are, an `and`-reduction over every axis is 1 only if every entry is, and an equality
  test is 1 only if its two words are equal; the shift amounts and the mask are broadcast scalars, so at each entry
  they are the constants themselves, and the position words are the coordinates read as 32-bit naturals.
-/
import proofs.«426952_j80908593922393_1_alg».proof.Pre_finite_inputs
import proofs.«426952_j80908593922393_1_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Hand

open Idealize.ShloMosaic Idealize.ShloMosaic.ValueIdx Cert.Pre_finite_inputs

variable [Facts]
variable {F : FTy → Type} [FloatOps F]

/-- From the predicate being all ones: every mask word sits in its own window. -/
theorem window_of_pre (U : FVec F S8x128x128x128 .f32) (M : IVec S8x128x128x128 32)
    (hpre : fn (F := F) U M = fun _ => 1#1) (b : Fin 8) (h w c : Fin 128) :
    IntOp.shrsi .host (M (ix4 b h w c)) 16#32 = BitVec.ofNat 32 h.val
      ∧ IntOp.andi (IntOp.shrsi .host (M (ix4 b h w c)) 8#32) 127#32 = BitVec.ofNat 32 w.val := by
  -- the result shape has rank 0, hence a single index
  haveI : Subsingleton S_.Idx := ⟨fun a b => funext fun d => d.elim0⟩
  -- the predicate at its one index, as the printed chain of operations
  have h0 := congrFun hpre ValueIdx.ix0
  dsimp only [fn] at h0
  -- the outer conjunction: keep the half that speaks of the mask
  obtain ⟨-, hall⟩ := IntOp.andi_eq_one.1 h0
  -- the reduction over all axes is 1, so the reduced bit is 1 at the entry (b, h, w, c)
  have hi := Host.reduce_andi_all _ _ _ _ _ hall (ix4 b h w c)
  -- the inner conjunction, then each equality test read back as an equality of words
  obtain ⟨h1, h2⟩ := IntOp.andi_eq_one.1 hi
  exact ⟨IntOp.cmpi_eq.1 h1, IntOp.cmpi_eq.1 h2⟩

end Cert.Pre_finite_inputs.Hand

end
-- ==== Proof.Words.lean ====
/-
  One mask word at a time: what the reference's integer chains make of it.
-/
import proofs.«426952_j80908593922393_1_alg».proof.Proof.Spec

noncomputable section

namespace Cert.Unpool.Words

open Idealize.ShloMosaic Cert.Unpool

/-- The sign word: 0, 1 or -1. -/
def sgn (x : BitVec 32) : BitVec 32 := if x = 0 then 0 else if x.msb then -1 else 1

/-- jnp's floor division of one word by one word. -/
def floorDivW (x k : BitVec 32) : BitVec 32 :=
  Scalar.select (IntOp.andi (IntOp.cmpi .ne (sgn x) (sgn k)) (IntOp.cmpi .ne (IntOp.remsi .host x k) 0#32))
    (IntOp.subi (IntOp.divsi .host x k) 1#32) (IntOp.divsi .host x k)

/-- The divisor jnp's remainder divides by: 1 in place of 0. -/
def safeW (k : BitVec 32) : BitVec 32 := Scalar.select (IntOp.cmpi .eq k 0#32) 1#32 k

/-- jnp's remainder of one word by one word. -/
def remW (x k : BitVec 32) : BitVec 32 :=
  Scalar.select
    (IntOp.andi (IntOp.cmpi .ne (IntOp.cmpi .slt (IntOp.remsi .host x (safeW k)) 0#32) (IntOp.cmpi .slt (safeW k) 0#32))
      (IntOp.cmpi .ne (IntOp.remsi .host x (safeW k)) 0#32))
    (IntOp.addi (IntOp.remsi .host x (safeW k)) (safeW k)) (IntOp.remsi .host x (safeW k))

/-- A negative word wrapped once by the extent n. -/
def wrapW (x n : BitVec 32) : BitVec 32 := Scalar.select (IntOp.cmpi .slt x 0#32) (IntOp.addi x n) x

/-- The row word and the column word the reference decodes from a mask word. -/
def rowW (m : BitVec 32) : BitVec 32 := wrapW (floorDivW m 32768#32) 256#32
def colW (m : BitVec 32) : BitVec 32 := wrapW (remW (floorDivW m 128#32) 256#32) 256#32
/-- An iota's word n, wrapped by the extent. -/
def numW (n : Nat) (ext : BitVec 32) : BitVec 32 := wrapW (BitVec.ofNat 32 n) ext

/-- A word reading below 2^31 is not negative. -/
private theorem msb_false_of_lt {x : BitVec 32} (h : x.toNat < 2 ^ 31) : x.msb = false := by
  rw [BitVec.msb_eq_false_iff_two_mul_lt]; omega

private theorem lt_of_msb_false {x : BitVec 32} (h : x.msb = false) : x.toNat < 2 ^ 31 := by
  rw [BitVec.msb_eq_false_iff_two_mul_lt] at h; omega

/-- Signed division of a non-negative word by a positive word is the unsigned quotient. -/
private theorem divsi_nonneg (x k : BitVec 32) (hx : x.msb = false) (hk : k.msb = false) (hk0 : k ≠ 0#32) :
    IntOp.divsi .host x k = x / k := by
  have hc : ¬ IntOp.SDivCorner x k := by
    rintro (h | ⟨h, -⟩)
    · exact hk0 h
    · subst h; simp [BitVec.msb_intMin] at hx
  rw [IntOp.divsi, if_neg hc, BitVec.sdiv_eq, hx, hk]
  rfl

/-- Signed remainder of a non-negative word by a positive word is the unsigned remainder. -/
private theorem remsi_nonneg (x k : BitVec 32) (hx : x.msb = false) (hk : k.msb = false) (hk0 : k ≠ 0#32) :
    IntOp.remsi .host x k = x % k := by
  have hc : ¬ IntOp.SDivCorner x k := by
    rintro (h | ⟨h, -⟩)
    · exact hk0 h
    · subst h; simp [BitVec.msb_intMin] at hx
  rw [IntOp.remsi, if_neg hc, BitVec.srem_eq, hx, hk]

/-- Floor division of a non-negative word by a positive word: no correction, the unsigned quotient. -/
private theorem floorDivW_nonneg (x k : BitVec 32) (hx : x.msb = false) (hk : k.msb = false) (hk0 : k ≠ 0#32) :
    floorDivW x k = x / k := by
  unfold floorDivW
  rw [divsi_nonneg x k hx hk hk0, remsi_nonneg x k hx hk hk0]
  have hc : IntOp.andi (IntOp.cmpi .ne (sgn x) (sgn k)) (IntOp.cmpi .ne (x % k) 0#32) = 0#1 := by
    by_cases h0 : x = 0#32
    · subst h0; simp [IntOp.andi, IntOp.cmpi]
    · simp [sgn, h0, hk0, hx, hk, IntOp.andi, IntOp.cmpi]
  rw [hc]; simp [Scalar.select]

/-- A non-negative word is left by the wrap. -/
private theorem wrapW_nonneg (x n : BitVec 32) (hx : x.msb = false) : wrapW x n = x := by
  unfold wrapW
  have hc : IntOp.cmpi .slt x 0#32 = 0#1 := by
    simp [IntOp.cmpi, BitVec.slt_zero_eq_msb, hx]
  rw [hc]; simp [Scalar.select]

/-- 256 is its own safe divisor. -/
private theorem safeW_256 : safeW 256#32 = 256#32 := by decide

/-- The remainder of a non-negative word by 256: no correction, the unsigned remainder. -/
private theorem remW_nonneg (x : BitVec 32) (hx : x.msb = false) : remW x 256#32 = x % 256#32 := by
  unfold remW
  rw [safeW_256, remsi_nonneg x 256#32 hx (by decide) (by decide)]
  have hr : (x % 256#32).msb = false := BitVec.msb_umod_eq_false_of_left hx _
  have hc : IntOp.cmpi .ne (IntOp.cmpi .slt (x % 256#32) 0#32) (IntOp.cmpi .slt 256#32 0#32) = 0#1 := by
    have h256 : (256#32).msb = false := by decide
    simp [IntOp.cmpi, BitVec.slt_zero_eq_msb, hr, h256]
  rw [hc]; simp [Scalar.select, IntOp.andi]

/-- The arithmetic shift of a non-negative word by a literal amount below 32 is the quotient by the power of two. -/
private theorem shrsi_toNat (u : ArithUnit) (x s : BitVec 32) (hx : x.msb = false) (hs : s.toNat < 32) :
    (IntOp.shrsi u x s).toNat = x.toNat / 2 ^ s.toNat := by
  rw [IntOp.shrsi, if_pos hs, BitVec.toNat_sshiftRight'_of_msb_false hx, Nat.shiftRight_eq_div_pow]

/-- A word whose arithmetic shift by 16 reads h < 128 is not negative, and h is its quotient by 2^16. -/
private theorem of_hy (m : BitVec 32) (h : Nat) (hh : h < 128)
    (hy : IntOp.shrsi .host m 16#32 = BitVec.ofNat 32 h) : m.msb = false ∧ m.toNat / 65536 = h := by
  have hs : (16#32).toNat < 32 := by decide
  rw [IntOp.shrsi, if_pos hs] at hy
  have hn := congrArg BitVec.toNat hy
  rw [BitVec.toNat_ofNat, Nat.mod_eq_of_lt (by omega)] at hn
  cases hm : m.msb
  · rw [BitVec.toNat_sshiftRight'_of_msb_false hm, Nat.shiftRight_eq_div_pow] at hn
    exact ⟨rfl, by simpa using hn⟩
  · exfalso
    rw [BitVec.toNat_sshiftRight'_of_msb_true hm, Nat.shiftRight_eq_div_pow] at hn
    have := m.isLt
    simp at hn
    omega

/-- The two offset bits are bits. -/
theorem dyBit_lt (m : BitVec 32) : (dyBit m).toNat < 2 := by
  unfold dyBit IntOp.andi
  rw [BitVec.toNat_and]
  have h1 : (1#32).toNat = 1 := rfl
  rw [h1, Nat.and_one_is_mod]; omega
theorem dxBit_lt (m : BitVec 32) : (dxBit m).toNat < 2 := by
  unfold dxBit IntOp.andi
  rw [BitVec.toNat_and]
  have h1 : (1#32).toNat = 1 := rfl
  rw [h1, Nat.and_one_is_mod]; omega

/-- A word whose half-row (m >> 16, arithmetic) is h < 128 decodes to row 2h + (bit 15 of m). -/
theorem rowW_toInt (m : BitVec 32) (h : Nat) (hh : h < 128)
    (hy : IntOp.shrsi .host m 16#32 = BitVec.ofNat 32 h) :
    (rowW m).toInt = ((2 * h + (dyBit m).toNat : Nat) : Int) := by
  obtain ⟨hm, hq⟩ := of_hy m h hh hy
  have hlt := lt_of_msb_false hm
  unfold rowW
  rw [floorDivW_nonneg m 32768#32 hm (by decide) (by decide)]
  have hd : (m / 32768#32).toNat = m.toNat / 32768 := by rw [BitVec.toNat_udiv]; rfl
  have hdm : (m / 32768#32).msb = false := msb_false_of_lt (by rw [hd]; omega)
  rw [wrapW_nonneg _ _ hdm, BitVec.toInt_eq_toNat_of_msb hdm, hd]
  have hb : (dyBit m).toNat = (m.toNat / 32768) % 2 := by
    unfold dyBit IntOp.andi
    rw [BitVec.toNat_and, shrsi_toNat _ m 15#32 hm (by decide)]
    have h1 : (1#32).toNat = 1 := rfl
    have h15 : (15#32).toNat = 15 := rfl
    rw [h1, h15, Nat.and_one_is_mod]
    rfl
  rw [hb]
  congr 1
  omega

/-- A word whose half-row is h < 128 and whose half-column ((m >> 8) & 127) is w decodes to column 2w + (bit 7 of m). -/
theorem colW_toInt (m : BitVec 32) (h w : Nat) (hh : h < 128) (hw : w < 128)
    (hy : IntOp.shrsi .host m 16#32 = BitVec.ofNat 32 h)
    (hx : IntOp.andi (IntOp.shrsi .host m 8#32) 127#32 = BitVec.ofNat 32 w) :
    (colW m).toInt = ((2 * w + (dxBit m).toNat : Nat) : Int) := by
  obtain ⟨hm, hq⟩ := of_hy m h hh hy
  have hlt := lt_of_msb_false hm
  unfold colW
  rw [floorDivW_nonneg m 128#32 hm (by decide) (by decide)]
  have hd : (m / 128#32).toNat = m.toNat / 128 := by rw [BitVec.toNat_udiv]; rfl
  have hdm : (m / 128#32).msb = false := msb_false_of_lt (by rw [hd]; omega)
  rw [remW_nonneg _ hdm]
  have hr : (m / 128#32 % 256#32).toNat = m.toNat / 128 % 256 := by rw [BitVec.toNat_umod, hd]; rfl
  have hrm : (m / 128#32 % 256#32).msb = false := msb_false_of_lt (by rw [hr]; omega)
  rw [wrapW_nonneg _ _ hrm, BitVec.toInt_eq_toNat_of_msb hrm, hr]
  have hb : (dxBit m).toNat = (m.toNat / 128) % 2 := by
    unfold dxBit IntOp.andi
    rw [BitVec.toNat_and, shrsi_toNat _ m 7#32 hm (by decide)]
    have h1 : (1#32).toNat = 1 := rfl
    have h7 : (7#32).toNat = 7 := rfl
    rw [h1, h7, Nat.and_one_is_mod]
    rfl
  have hwv : (m.toNat / 256) % 128 = w := by
    have hn := congrArg BitVec.toNat hx
    unfold IntOp.andi at hn
    have h127 : (127#32).toNat = 2 ^ 7 - 1 := rfl
    have h8 : (8#32).toNat = 8 := rfl
    have hwn : (BitVec.ofNat 32 w).toNat = w := by
      rw [BitVec.toNat_ofNat]; exact Nat.mod_eq_of_lt (by omega)
    rw [BitVec.toNat_and, shrsi_toNat _ m 8#32 hm (by decide), h127, h8, hwn,
      Nat.and_two_pow_sub_one_eq_mod] at hn
    exact hn
  rw [hb]
  congr 1
  omega

/-- A small iota word is not negative: wrapping leaves it, and it reads as itself. -/
theorem numW_toInt (n : Nat) (ext : BitVec 32) (hn : n < 2 ^ 31) : (numW n ext).toInt = (n : Int) := by
  have ht : (BitVec.ofNat 32 n).toNat = n := by rw [BitVec.toNat_ofNat]; exact Nat.mod_eq_of_lt (by omega)
  have hm : (BitVec.ofNat 32 n).msb = false := msb_false_of_lt (by rw [ht]; exact hn)
  unfold numW
  rw [wrapW_nonneg _ _ hm, BitVec.toInt_eq_toNat_of_msb hm, ht]

end Cert.Unpool.Words

end
-- ==== Proof.RefTable.lean ====
/-
  The reference's table of positions read one word at a time: the row of four words of input entry (b, h, w, c) is
  (the batch word of b, the row word of the mask word there, the column word of the mask word there, the channel word of c).

  The table joins four columns of thickness one along the last axis, so last coordinate k reads column k at last
  coordinate 0; a column of thickness one read there is its table at (b, h, w, c); and every table is built pointwise
  (or from an iota broadcast along the one axis it varies on), so its entry is the scalar word function of the entry.
-/
import proofs.«426952_j80908593922393_1_alg».proof.Proof.RefTerm
import proofs.«426952_j80908593922393_1_alg».proof.Proof.Words
import Idealize.ShloMosaic.Lib.ValueIdx
import Idealize.ShloMosaic.Lib.ValueLayout
import Idealize.ShloMosaic.Lib.Pipeline.Value

noncomputable section

namespace Cert.ReferenceIdeal.Hand

open Idealize.ShloMosaic Idealize.ShloMosaic.ValueIdx Cert.ReferenceIdeal Cert.Unpool.Words

variable [Facts]

/-- A last column of thickness one read at last coordinate 0 is the table at the first four coordinates. -/
private theorem col1_apply (x : IVec S8x128x128x128 32) (b : Fin 8) (h w c : Fin 128) :
    col1 x (ix5 b h w c (0 : Fin 1)) = x (ix4 b h w c) := by
  unfold col1
  refine broadcastInDim_apply _ _ x _ (ix4 b h w c) ?_
  intro a
  match a with
  | ⟨0, _⟩ => rfl
  | ⟨1, _⟩ => rfl
  | ⟨2, _⟩ => rfl
  | ⟨3, _⟩ => rfl

/-- The row table and the column table are pointwise: each entry is the scalar word function of the mask word there. -/
private theorem rowTab_apply (M : IVec S8x128x128x128 32) (i : S8x128x128x128.Idx) : rowTab M i = rowW (M i) := rfl
private theorem colTab_apply (M : IVec S8x128x128x128 32) (i : S8x128x128x128.Idx) : colTab M i = colW (M i) := rfl

/-- The batch table at (b, h, w, c) is the batch column at (b, 0, 0, 0): the iota's word b, wrapped by 8. -/
private theorem batchTab_apply (b : Fin 8) (h w c : Fin 128) : batchTab (ix4 b h w c) = numW b.val 8#32 := by
  unfold batchTab
  rw [broadcastInDim_apply _ _ batchCol _ (ix4 b (0 : Fin 1) (0 : Fin 1) (0 : Fin 1)) (by
    intro a
    match a with
    | ⟨0, _⟩ => rfl
    | ⟨1, _⟩ => rfl
    | ⟨2, _⟩ => rfl
    | ⟨3, _⟩ => rfl)]
  rfl

/-- The channel table at (b, h, w, c) is the channel row at (0, 0, 0, c): the iota's word c, wrapped by 128. -/
private theorem chanTab_apply (b : Fin 8) (h w c : Fin 128) : chanTab (ix4 b h w c) = numW c.val 128#32 := by
  unfold chanTab
  rw [broadcastInDim_apply _ _ chanRow _ (ix4 (0 : Fin 1) (0 : Fin 1) (0 : Fin 1) c) (by
    intro a
    match a with
    | ⟨0, _⟩ => rfl
    | ⟨1, _⟩ => rfl
    | ⟨2, _⟩ => rfl
    | ⟨3, _⟩ => rfl)]
  rfl

/-- Four pieces of thickness one joined along the last axis: k pieces of extent 1 come before piece k, so last
    coordinate k reads piece k at last coordinate 0, the other coordinates unchanged. -/
private theorem table_piece (M : IVec S8x128x128x128 32) (b : Fin 8) (h w c : Fin 128) (k : Fin 4)
    (x : IVec S8x128x128x128x1 32)
    (hx : [(⟨S8x128x128x128x1, col1 batchTab⟩ : (s : Shape) × (s.Idx → BitVec 32)), ⟨S8x128x128x128x1, col1 (rowTab M)⟩,
      ⟨S8x128x128x128x1, col1 (colTab M)⟩, ⟨S8x128x128x128x1, col1 chanTab⟩][k.val]'(by simp) = ⟨S8x128x128x128x1, x⟩) :
    table M (ix5 b h w c k) = x (ix5 b h w c (0 : Fin 1)) := by
  unfold table
  refine concatenate_apply_piece (4 : Fin 5) _ _ (ix5 b h w c k) k.val (by simp) S8x128x128x128x1 x hx rfl k.val ?_
    (ix5 b h w c (0 : Fin 1)) ?_ ?_
  · match k with
    | ⟨0, _⟩ => rfl
    | ⟨1, _⟩ => rfl
    | ⟨2, _⟩ => rfl
    | ⟨3, _⟩ => rfl
  · intro a ha
    match a, ha with
    | ⟨0, _⟩, _ => rfl
    | ⟨1, _⟩, _ => rfl
    | ⟨2, _⟩, _ => rfl
    | ⟨3, _⟩, _ => rfl
    | ⟨4, _⟩, ha => exact absurd rfl ha
  · rfl

theorem table_batch (M : IVec S8x128x128x128 32) (b : Fin 8) (h w c : Fin 128) :
    table M (ix5 b h w c (0 : Fin 4)) = numW b.val 8#32 := by
  rw [table_piece M b h w c 0 (col1 batchTab) rfl, col1_apply, batchTab_apply]

theorem table_row (M : IVec S8x128x128x128 32) (b : Fin 8) (h w c : Fin 128) :
    table M (ix5 b h w c (1 : Fin 4)) = rowW (M (ix4 b h w c)) := by
  rw [table_piece M b h w c 1 (col1 (rowTab M)) rfl, col1_apply, rowTab_apply]

theorem table_col (M : IVec S8x128x128x128 32) (b : Fin 8) (h w c : Fin 128) :
    table M (ix5 b h w c (2 : Fin 4)) = colW (M (ix4 b h w c)) := by
  rw [table_piece M b h w c 2 (col1 (colTab M)) rfl, col1_apply, colTab_apply]

theorem table_chan (M : IVec S8x128x128x128 32) (b : Fin 8) (h w c : Fin 128) :
    table M (ix5 b h w c (3 : Fin 4)) = numW c.val 128#32 := by
  rw [table_piece M b h w c 3 (col1 chanTab) rfl, col1_apply, chanTab_apply]

end Cert.ReferenceIdeal.Hand

end
-- ==== Proof.LibPointQuad.lean ====
/-
  GENERAL LEMMA: where an update lands when a rank-4 array of updates [B, H, W, K] is scattered into a rank-4 array
  [A, Y, X, C] at a table [B, H, W, K, 4] of (a, y, x, c) words, one row of four words per update
  (`x.at[i0, i1, i2, i3].add(v)` at four integer arrays of the updates' shape): update (b, h, w, k) lands at its four
  words, each read signed, or nowhere when they are no index of the array. Arbitrary extents; nothing here mentions a program.
-/
import Idealize.ShloMosaic.PureOps.ShapeOps
import Idealize.ShloMosaic.PureOps.Dims
import Idealize.ShloMosaic.Lib.ValueIdx

noncomputable section

namespace Cert.Hand.PointQuad

open Idealize.ShloMosaic Idealize.ShloMosaic.ValueIdx

abbrev pointScatter4 (A Y X C B H W K : Nat)
    (wf : ScatterDims.WF ⟨4, ![A, Y, X, C]⟩ ⟨5, ![B, H, W, K, 4]⟩ ⟨4, ![B, H, W, K]⟩ [] [0, 1, 2, 3] [0, 1, 2, 3] 4) :
    ScatterDims ⟨4, ![A, Y, X, C]⟩ ⟨5, ![B, H, W, K, 4]⟩ ⟨4, ![B, H, W, K]⟩ where
  updateWindowDims := []
  insertedWindowDims := [0, 1, 2, 3]
  scatterDimsToOperandDims := [0, 1, 2, 3]
  indexVectorDim := 4
  wf := wf

/-- On array axis 0 the window of update (b, h, w, k) starts at word 0 of its table row, read signed. -/
theorem pointScatter4_start_0 {A Y X C B H W K wd : Nat}
    (wf : ScatterDims.WF ⟨4, ![A, Y, X, C]⟩ ⟨5, ![B, H, W, K, 4]⟩ ⟨4, ![B, H, W, K]⟩ [] [0, 1, 2, 3] [0, 1, 2, 3] 4)
    (idx : IVec ⟨5, ![B, H, W, K, 4]⟩ wd) (b : Fin B) (h : Fin H) (w : Fin W) (k : Fin K) :
    (pointScatter4 A Y X C B H W K wf).start (ix4 b h w k) idx (0 : Fin 4) = (idx (ix5 b h w k (0 : Fin 4))).toInt := by
  unfold ScatterDims.start
  rw [dif_pos (show (0 : Fin 4) ∈ (pointScatter4 A Y X C B H W K wf).scatterDimsToOperandDims from
    (by decide : (0 : Fin 4) ∈ [(0 : Fin 4), 1, 2, 3]))]
  have e : (pointScatter4 A Y X C B H W K wf).siIdx (ix4 b h w k)
      ⟨(pointScatter4 A Y X C B H W K wf).scatterDimsToOperandDims.idxOf (0 : Fin 4),
        List.idxOf_lt_length_iff.2 (by decide : (0 : Fin 4) ∈ [(0 : Fin 4), 1, 2, 3])⟩ = ix5 b h w k (0 : Fin 4) := by
    funext c
    refine Fin.ext ?_
    match c with
    | ⟨0, _⟩ => rfl
    | ⟨1, _⟩ => rfl
    | ⟨2, _⟩ => rfl
    | ⟨3, _⟩ => rfl
    | ⟨4, _⟩ => rfl
  rw [e]

/-- On array axis 1 the window of update (b, h, w, k) starts at word 1 of its table row, read signed. -/
theorem pointScatter4_start_1 {A Y X C B H W K wd : Nat}
    (wf : ScatterDims.WF ⟨4, ![A, Y, X, C]⟩ ⟨5, ![B, H, W, K, 4]⟩ ⟨4, ![B, H, W, K]⟩ [] [0, 1, 2, 3] [0, 1, 2, 3] 4)
    (idx : IVec ⟨5, ![B, H, W, K, 4]⟩ wd) (b : Fin B) (h : Fin H) (w : Fin W) (k : Fin K) :
    (pointScatter4 A Y X C B H W K wf).start (ix4 b h w k) idx (1 : Fin 4) = (idx (ix5 b h w k (1 : Fin 4))).toInt := by
  unfold ScatterDims.start
  rw [dif_pos (show (1 : Fin 4) ∈ (pointScatter4 A Y X C B H W K wf).scatterDimsToOperandDims from
    (by decide : (1 : Fin 4) ∈ [(0 : Fin 4), 1, 2, 3]))]
  have e : (pointScatter4 A Y X C B H W K wf).siIdx (ix4 b h w k)
      ⟨(pointScatter4 A Y X C B H W K wf).scatterDimsToOperandDims.idxOf (1 : Fin 4),
        List.idxOf_lt_length_iff.2 (by decide : (1 : Fin 4) ∈ [(0 : Fin 4), 1, 2, 3])⟩ = ix5 b h w k (1 : Fin 4) := by
    funext c
    refine Fin.ext ?_
    match c with
    | ⟨0, _⟩ => rfl
    | ⟨1, _⟩ => rfl
    | ⟨2, _⟩ => rfl
    | ⟨3, _⟩ => rfl
    | ⟨4, _⟩ => rfl
  rw [e]

/-- On array axis 2 the window of update (b, h, w, k) starts at word 2 of its table row, read signed. -/
theorem pointScatter4_start_2 {A Y X C B H W K wd : Nat}
    (wf : ScatterDims.WF ⟨4, ![A, Y, X, C]⟩ ⟨5, ![B, H, W, K, 4]⟩ ⟨4, ![B, H, W, K]⟩ [] [0, 1, 2, 3] [0, 1, 2, 3] 4)
    (idx : IVec ⟨5, ![B, H, W, K, 4]⟩ wd) (b : Fin B) (h : Fin H) (w : Fin W) (k : Fin K) :
    (pointScatter4 A Y X C B H W K wf).start (ix4 b h w k) idx (2 : Fin 4) = (idx (ix5 b h w k (2 : Fin 4))).toInt := by
  unfold ScatterDims.start
  rw [dif_pos (show (2 : Fin 4) ∈ (pointScatter4 A Y X C B H W K wf).scatterDimsToOperandDims from
    (by decide : (2 : Fin 4) ∈ [(0 : Fin 4), 1, 2, 3]))]
  have e : (pointScatter4 A Y X C B H W K wf).siIdx (ix4 b h w k)
      ⟨(pointScatter4 A Y X C B H W K wf).scatterDimsToOperandDims.idxOf (2 : Fin 4),
        List.idxOf_lt_length_iff.2 (by decide : (2 : Fin 4) ∈ [(0 : Fin 4), 1, 2, 3])⟩ = ix5 b h w k (2 : Fin 4) := by
    funext c
    refine Fin.ext ?_
    match c with
    | ⟨0, _⟩ => rfl
    | ⟨1, _⟩ => rfl
    | ⟨2, _⟩ => rfl
    | ⟨3, _⟩ => rfl
    | ⟨4, _⟩ => rfl
  rw [e]

/-- On array axis 3 the window of update (b, h, w, k) starts at word 3 of its table row, read signed. -/
theorem pointScatter4_start_3 {A Y X C B H W K wd : Nat}
    (wf : ScatterDims.WF ⟨4, ![A, Y, X, C]⟩ ⟨5, ![B, H, W, K, 4]⟩ ⟨4, ![B, H, W, K]⟩ [] [0, 1, 2, 3] [0, 1, 2, 3] 4)
    (idx : IVec ⟨5, ![B, H, W, K, 4]⟩ wd) (b : Fin B) (h : Fin H) (w : Fin W) (k : Fin K) :
    (pointScatter4 A Y X C B H W K wf).start (ix4 b h w k) idx (3 : Fin 4) = (idx (ix5 b h w k (3 : Fin 4))).toInt := by
  unfold ScatterDims.start
  rw [dif_pos (show (3 : Fin 4) ∈ (pointScatter4 A Y X C B H W K wf).scatterDimsToOperandDims from
    (by decide : (3 : Fin 4) ∈ [(0 : Fin 4), 1, 2, 3]))]
  have e : (pointScatter4 A Y X C B H W K wf).siIdx (ix4 b h w k)
      ⟨(pointScatter4 A Y X C B H W K wf).scatterDimsToOperandDims.idxOf (3 : Fin 4),
        List.idxOf_lt_length_iff.2 (by decide : (3 : Fin 4) ∈ [(0 : Fin 4), 1, 2, 3])⟩ = ix5 b h w k (3 : Fin 4) := by
    funext c
    refine Fin.ext ?_
    match c with
    | ⟨0, _⟩ => rfl
    | ⟨1, _⟩ => rfl
    | ⟨2, _⟩ => rfl
    | ⟨3, _⟩ => rfl
    | ⟨4, _⟩ => rfl
  rw [e]

/-- Every array axis is an inserted one: the window coordinate is zero on each. -/
theorem pointScatter4_window {A Y X C B H W K : Nat}
    (wf : ScatterDims.WF ⟨4, ![A, Y, X, C]⟩ ⟨5, ![B, H, W, K, 4]⟩ ⟨4, ![B, H, W, K]⟩ [] [0, 1, 2, 3] [0, 1, 2, 3] 4)
    (j : (⟨4, ![B, H, W, K]⟩ : Shape).Idx) (a : Fin 4) :
    (pointScatter4 A Y X C B H W K wf).window j a = 0 := by
  unfold ScatterDims.window
  rw [dif_neg]
  show a ∉ (List.finRange 4).filter (· ∉ [(0 : Fin 4), 1, 2, 3])
  revert a
  decide

/-- Update (b, h, w, k) lands at (a, y, x, c) exactly when the four words of its table row, read signed, are a, y, x, c. -/
theorem pointScatter4_resultIdx_iff {A Y X C B H W K wd : Nat}
    (wf : ScatterDims.WF ⟨4, ![A, Y, X, C]⟩ ⟨5, ![B, H, W, K, 4]⟩ ⟨4, ![B, H, W, K]⟩ [] [0, 1, 2, 3] [0, 1, 2, 3] 4)
    (idx : IVec ⟨5, ![B, H, W, K, 4]⟩ wd) (b : Fin B) (h : Fin H) (w : Fin W) (k : Fin K)
    (a : Fin A) (y : Fin Y) (x : Fin X) (c : Fin C) :
    (pointScatter4 A Y X C B H W K wf).resultIdx? (ix4 b h w k) idx = some (ix4 a y x c)
      ↔ (idx (ix5 b h w k (0 : Fin 4))).toInt = (a.val : ℤ) ∧ (idx (ix5 b h w k (1 : Fin 4))).toInt = (y.val : ℤ)
        ∧ (idx (ix5 b h w k (2 : Fin 4))).toInt = (x.val : ℤ) ∧ (idx (ix5 b h w k (3 : Fin 4))).toInt = (c.val : ℤ) := by
  have s0 := pointScatter4_start_0 wf idx b h w k
  have s1 := pointScatter4_start_1 wf idx b h w k
  have s2 := pointScatter4_start_2 wf idx b h w k
  have s3 := pointScatter4_start_3 wf idx b h w k
  have w0 := pointScatter4_window wf (ix4 b h w k) 0
  have w1 := pointScatter4_window wf (ix4 b h w k) 1
  have w2 := pointScatter4_window wf (ix4 b h w k) 2
  have w3 := pointScatter4_window wf (ix4 b h w k) 3
  unfold ScatterDims.resultIdx?
  split
  · rename_i hin
    rw [Option.some.injEq]
    constructor
    · intro e
      have e0 : ((pointScatter4 A Y X C B H W K wf).start (ix4 b h w k) idx (0 : Fin 4)
          + ((pointScatter4 A Y X C B H W K wf).window (ix4 b h w k) (0 : Fin 4) : ℤ)).toNat = a.val :=
        congrArg (fun f => (f 0).val) e
      have e1 : ((pointScatter4 A Y X C B H W K wf).start (ix4 b h w k) idx (1 : Fin 4)
          + ((pointScatter4 A Y X C B H W K wf).window (ix4 b h w k) (1 : Fin 4) : ℤ)).toNat = y.val :=
        congrArg (fun f => (f 1).val) e
      have e2 : ((pointScatter4 A Y X C B H W K wf).start (ix4 b h w k) idx (2 : Fin 4)
          + ((pointScatter4 A Y X C B H W K wf).window (ix4 b h w k) (2 : Fin 4) : ℤ)).toNat = x.val :=
        congrArg (fun f => (f 2).val) e
      have e3 : ((pointScatter4 A Y X C B H W K wf).start (ix4 b h w k) idx (3 : Fin 4)
          + ((pointScatter4 A Y X C B H W K wf).window (ix4 b h w k) (3 : Fin 4) : ℤ)).toNat = c.val :=
        congrArg (fun f => (f 3).val) e
      have h0 := (hin 0).1
      have h1 := (hin 1).1
      have h2 := (hin 2).1
      have h3 := (hin 3).1
      rw [s0, w0] at e0 h0
      rw [s1, w1] at e1 h1
      rw [s2, w2] at e2 h2
      rw [s3, w3] at e3 h3
      refine ⟨?_, ?_, ?_, ?_⟩ <;> omega
    · rintro ⟨g0, g1, g2, g3⟩
      funext e
      refine Fin.ext ?_
      match e with
      | ⟨0, _⟩ =>
        show (((pointScatter4 A Y X C B H W K wf).start (ix4 b h w k) idx (0 : Fin 4)
          + ((pointScatter4 A Y X C B H W K wf).window (ix4 b h w k) (0 : Fin 4) : ℤ)).toNat) = a.val
        rw [s0, w0, g0]; omega
      | ⟨1, _⟩ =>
        show (((pointScatter4 A Y X C B H W K wf).start (ix4 b h w k) idx (1 : Fin 4)
          + ((pointScatter4 A Y X C B H W K wf).window (ix4 b h w k) (1 : Fin 4) : ℤ)).toNat) = y.val
        rw [s1, w1, g1]; omega
      | ⟨2, _⟩ =>
        show (((pointScatter4 A Y X C B H W K wf).start (ix4 b h w k) idx (2 : Fin 4)
          + ((pointScatter4 A Y X C B H W K wf).window (ix4 b h w k) (2 : Fin 4) : ℤ)).toNat) = x.val
        rw [s2, w2, g2]; omega
      | ⟨3, _⟩ =>
        show (((pointScatter4 A Y X C B H W K wf).start (ix4 b h w k) idx (3 : Fin 4)
          + ((pointScatter4 A Y X C B H W K wf).window (ix4 b h w k) (3 : Fin 4) : ℤ)).toNat) = c.val
        rw [s3, w3, g3]; omega
  · rename_i hout
    constructor
    · intro e; exact absurd e (by simp)
    · rintro ⟨g0, g1, g2, g3⟩
      exfalso
      apply hout
      intro e
      match e with
      | ⟨0, _⟩ =>
        show 0 ≤ (pointScatter4 A Y X C B H W K wf).start (ix4 b h w k) idx (0 : Fin 4)
            + ((pointScatter4 A Y X C B H W K wf).window (ix4 b h w k) (0 : Fin 4) : ℤ)
          ∧ (pointScatter4 A Y X C B H W K wf).start (ix4 b h w k) idx (0 : Fin 4)
            + ((pointScatter4 A Y X C B H W K wf).window (ix4 b h w k) (0 : Fin 4) : ℤ) < (A : ℤ)
        rw [s0, w0, g0]; have := a.isLt; omega
      | ⟨1, _⟩ =>
        show 0 ≤ (pointScatter4 A Y X C B H W K wf).start (ix4 b h w k) idx (1 : Fin 4)
            + ((pointScatter4 A Y X C B H W K wf).window (ix4 b h w k) (1 : Fin 4) : ℤ)
          ∧ (pointScatter4 A Y X C B H W K wf).start (ix4 b h w k) idx (1 : Fin 4)
            + ((pointScatter4 A Y X C B H W K wf).window (ix4 b h w k) (1 : Fin 4) : ℤ) < (Y : ℤ)
        rw [s1, w1, g1]; have := y.isLt; omega
      | ⟨2, _⟩ =>
        show 0 ≤ (pointScatter4 A Y X C B H W K wf).start (ix4 b h w k) idx (2 : Fin 4)
            + ((pointScatter4 A Y X C B H W K wf).window (ix4 b h w k) (2 : Fin 4) : ℤ)
          ∧ (pointScatter4 A Y X C B H W K wf).start (ix4 b h w k) idx (2 : Fin 4)
            + ((pointScatter4 A Y X C B H W K wf).window (ix4 b h w k) (2 : Fin 4) : ℤ) < (X : ℤ)
        rw [s2, w2, g2]; have := x.isLt; omega
      | ⟨3, _⟩ =>
        show 0 ≤ (pointScatter4 A Y X C B H W K wf).start (ix4 b h w k) idx (3 : Fin 4)
            + ((pointScatter4 A Y X C B H W K wf).window (ix4 b h w k) (3 : Fin 4) : ℤ)
          ∧ (pointScatter4 A Y X C B H W K wf).start (ix4 b h w k) idx (3 : Fin 4)
            + ((pointScatter4 A Y X C B H W K wf).window (ix4 b h w k) (3 : Fin 4) : ℤ) < (C : ℤ)
        rw [s3, w3, g3]; have := c.isLt; omega

end Cert.Hand.PointQuad

end
-- ==== Proof.Bridge.lean ====
/-
  The reference's scatter collapses to the unpooled array when every mask word sits in its own 2×2 window.

  The reference's result at (a, Y, X, f) is zero plus the sum of the updates whose four table words are (a, Y, X, f).
  Under the window hypothesis the table row of input entry (b, h, w, k) is (b, 2h + dy, 2w + dx, k) with dy, dx the two
  offset bits of that entry's mask word, so the only entry that can land at (a, Y, X, f) is (a, Y / 2, X / 2, f), and it
  does exactly when its bits are the parities of Y and X: the sum has that one term or none.
-/
import proofs.«426952_j80908593922393_1_alg».proof.Proof.Spec
import proofs.«426952_j80908593922393_1_alg».proof.Proof.Words
import proofs.«426952_j80908593922393_1_alg».proof.Proof.RefTerm
import proofs.«426952_j80908593922393_1_alg».proof.Proof.RefTable
import proofs.«426952_j80908593922393_1_alg».proof.Proof.LibPointQuad
import Idealize.ShloMosaic.PureOps.Ideal.Laws

noncomputable section

namespace Cert.Bridge

open Idealize.ShloMosaic Idealize.ShloMosaic.ValueIdx Cert.Unpool Cert.Unpool.Words Cert.ReferenceIdeal
open Cert.ReferenceIdeal.Hand Cert.Hand.PointQuad

variable [Facts]

/-- The window hypothesis: the word of entry (b, h, w, c) has half-row h and half-column w. -/
def InWindow (M : IVec SIn 32) : Prop :=
  ∀ (b : Fin 8) (h w c : Fin 128),
    IntOp.shrsi .host (M (ix4 b h w c)) 16#32 = BitVec.ofNat 32 h.val
      ∧ IntOp.andi (IntOp.shrsi .host (M (ix4 b h w c)) 8#32) 127#32 = BitVec.ofNat 32 w.val

/-- A word below 2 is the parity it equals as a number. -/
theorem bit_eq_iff (x : BitVec 32) (p : Nat) (hp : p < 2) : x = BitVec.ofNat 32 p ↔ x.toNat = p := by
  constructor
  · intro h; rw [h, BitVec.toNat_ofNat]; omega
  · intro h; apply BitVec.eq_of_toNat_eq; rw [h, BitVec.toNat_ofNat]; omega

/-- Where input entry (b, h, w, k) lands. -/
theorem lands_iff (M : IVec SIn 32) (hM : InWindow M) (b : Fin 8) (h w k : Fin 128)
    (a : Fin 8) (Y X : Fin 256) (f : Fin 128) :
    scatter_S8x256x256x128_S8x128x128x128x4_S8x128x128x128_n_0123_0123_4.resultIdx? (ix4 b h w k) (table M)
        = some (ix4 a Y X f)
      ↔ ((ix4 b h w k : SIn.Idx) = ix4 a (half256 Y) (half256 X) f
          ∧ dyBit (M (ix4 a (half256 Y) (half256 X) f)) = BitVec.ofNat 32 (Y.val % 2)
          ∧ dxBit (M (ix4 a (half256 Y) (half256 X) f)) = BitVec.ofNat 32 (X.val % 2)) := by
  have hq := pointScatter4_resultIdx_iff
    (Facts₀.scatter_S8x256x256x128_S8x128x128x128x4_S8x128x128x128_n_0123_0123_4_wf) (table M) b h w k a Y X f
  refine Iff.trans hq ?_
  rw [table_batch, table_row, table_col, table_chan,
    numW_toInt b.val 8#32 (by have := b.isLt; omega), numW_toInt k.val 128#32 (by have := k.isLt; omega),
    rowW_toInt _ h.val h.isLt (hM b h w k).1, colW_toInt _ h.val w.val h.isLt w.isLt (hM b h w k).1 (hM b h w k).2]
  have hdy := dyBit_lt (M (ix4 b h w k))
  have hdx := dxBit_lt (M (ix4 b h w k))
  have hY := Y.isLt
  have hX := X.isLt
  constructor
  · rintro ⟨hb, hy, hx, hk⟩
    have eb : b = a := Fin.ext (by omega)
    have ek : k = f := Fin.ext (by omega)
    have eh : h = half256 Y := Fin.ext (by show h.val = Y.val / 2; omega)
    have ew : w = half256 X := Fin.ext (by show w.val = X.val / 2; omega)
    subst eb ek eh ew
    refine ⟨rfl, ?_, ?_⟩
    · rw [bit_eq_iff _ _ (Nat.mod_lt _ (by decide))]
      have : (half256 Y).val = Y.val / 2 := rfl
      omega
    · rw [bit_eq_iff _ _ (Nat.mod_lt _ (by decide))]
      have : (half256 X).val = X.val / 2 := rfl
      omega
  · rintro ⟨he, hy, hx⟩
    have eb : b = a := congrFun he 0
    have eh : h = half256 Y := congrFun he 1
    have ew : w = half256 X := congrFun he 2
    have ek : k = f := congrFun he 3
    subst eb ek eh ew
    rw [bit_eq_iff _ _ (Nat.mod_lt _ (by decide))] at hy hx
    have h1 : (half256 Y).val = Y.val / 2 := rfl
    have h2 : (half256 X).val = X.val / 2 := rfl
    refine ⟨rfl, ?_, ?_, rfl⟩
    · omega
    · omega

/-- THE BRIDGE: under the window hypothesis the reference's result is the unpooled array. -/
theorem refOut_eq_unpool (M : IVec SIn 32) (U : FVec Ideal SIn .f32) (hM : InWindow M) :
    refOut (F := Ideal) M U = unpool M U := by
  funext j
  obtain ⟨a, Y, X, f, rfl⟩ : ∃ (a : Fin 8) (Y X : Fin 256) (f : Fin 128), j = ix4 a Y X f :=
    ⟨j 0, j 1, j 2, j 3, eq_ix4 j⟩
  rw [unpool_apply]
  unfold refOut Host.scatterAdd
  rw [Ideal.hostScatterAdd_def]
  unfold Ideal.hostScatterAdd
  have hz : broadcastInDim S8x256x256x128 ![] Facts₀.bcast_S_S8x256x256x128 (constant (F := Ideal) S_ .f32 0x00000000#32)
      (ix4 a Y X f) = (0 : EReal) := by
    show Ideal.ofBits .f32 0x00000000#32 = 0
    exact Ideal.ofBits_zero_f32
  rw [hz, zero_add, Finset.sum_filter]
  rw [Finset.sum_eq_single (ix4 a (half256 Y) (half256 X) f : SIn.Idx)]
  · unfold unpoolAt
    refine if_congr ?_ rfl rfl
    rw [lands_iff M hM]
    exact ⟨fun h => ⟨h.2.1, h.2.2⟩, fun h => ⟨rfl, h.1, h.2⟩⟩
  · intro e _ hne
    obtain ⟨b, h, w, k, rfl⟩ : ∃ (b : Fin 8) (h w k : Fin 128), e = ix4 b h w k := ⟨e 0, e 1, e 2, e 3, eq_ix4 e⟩
    refine if_neg ?_
    rw [lands_iff M hM]
    exact fun h => hne h.1
  · intro h; exact absurd (Finset.mem_univ _) h

end Cert.Bridge

end
-- ==== Proof.lean ====
/-
  Max-unpooling by a 2×2 window: the Pallas kernel against the jnp reference, equal as extended reals.

  The mask holds, for every pooled entry (b, h, w, c), the flat index m of a position in the [256, 256, 128] plane.
  The reference decodes the row y = m div 2^15 and the column x = (m div 2^7) mod 2^8 and adds the entry's update at
  (b, y, x, c). The kernel never decodes a position: it reads bit 15 and bit 7 of m as the offsets (dy, dx) inside the
  entry's own window and writes the update at (b, 2h + dy, 2w + dx, c), zero at the window's other three places. The
  two agree exactly when every index points into its own window — y div 2 = h and x div 2 = w —, which is what the
  precondition states of the mask (the flat arg-max indices of a 2×2, stride-2 max pool). Then y = 2h + dy and
  x = 2w + dx, no two entries share a position, and the reference's sum at (b, Y, X, c) has the one term the kernel
  wrote there, or none where the kernel wrote zero.

  The three frames: the kernel's two are the generated frame proofs; the reference's is its run with the result
  dropped. The idealization rewrote nothing, so `preserves` is trivial.
-/
import proofs.«426952_j80908593922393_1_alg».proof.Defs
import proofs.«426952_j80908593922393_1_alg».proof.Proof.Gen.Kernel
import proofs.«426952_j80908593922393_1_alg».proof.Proof.Gen.Kernel.Frame
import proofs.«426952_j80908593922393_1_alg».proof.Proof.Gen.KernelIdeal
import proofs.«426952_j80908593922393_1_alg».proof.Proof.Gen.KernelIdeal.Frame
import proofs.«426952_j80908593922393_1_alg».proof.Proof.Gen.ReferenceIdeal
import proofs.«426952_j80908593922393_1_alg».proof.Proof.Gen.Pre_finite_inputs
import proofs.«426952_j80908593922393_1_alg».proof.Proof.KernelValue
import proofs.«426952_j80908593922393_1_alg».proof.Proof.RefRun
import proofs.«426952_j80908593922393_1_alg».proof.Proof.PreDecode
import proofs.«426952_j80908593922393_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run (F := Ideal) m ρ)

/-- Both runs end at the unpooled array of the shared arguments: the kernel's by its blocks, the reference's because
    the precondition puts every mask word in its own window, where its scatter is that array. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.Bridge.refOut_eq_unpool _ _
    (fun b h w k => Cert.Pre_finite_inputs.Hand.window_of_pre _ _ (hpre c) b h w k)

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
